-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x64x64 : Shape := ⟨4, ![8, 128, 64, 64]⟩
abbrev S8x64x128x128 : Shape := ⟨4, ![8, 64, 128, 128]⟩
abbrev S64x64 : Shape := ⟨2, ![64, 64]⟩
abbrev S64 : Shape := ⟨1, ![64]⟩
abbrev S_ : Shape := ⟨0, ![]⟩

class Facts : Prop where
  bcast_S_S8x128x64x64 : S_.BroadcastsInDim S8x128x64x64 (![] : Fin 0 → Fin S8x128x64x64.rank)
  reducesTo_S8x128x64x64_S_d0_1_2_3 : S8x128x64x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x64 .f32) (main_arg11 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S8x128x64x64 .f32) (main_arg1 : FVec F S8x128x64x64 .f32) (main_arg2 : FVec F S8x128x64x64 .f32) (main_arg3 : IVec S8x64x128x128 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) : IVec S_ 1 :=
  let main_v0 : FVec F S8x128x64x64 .f32 := Host.absf main_arg0
  let main_cst : FVec F S_ .f32 := constant S_ .f32 0x7F800000#32
  let main_v1 : FVec F S8x128x64x64 .f32 := broadcastInDim S8x128x64x64 ![] bcast_S_S8x128x64x64 main_cst
  let main_v2 : IVec S8x128x64x64 1 := cmpf .olt main_v0 main_v1
  let main_c : IVec S_ 1 := constantI S_ 1 1#1
  let main_v3 : IVec S_ 1 := (fun x v => Host.reduce IntOp.andi x v reducesTo_S8x128x64x64_S_d0_1_2_3 h_S_) main_v2 main_c
  let main_v4 : FVec F S8x128x64x64 .f32 := Host.absf main_arg1
  let main_cst_0 : FVec F S_ .f32 := constant S_ .f32 0x7F800000#32
  let main_v5 : FVec F S8x128x64x64 .f32 := broadcastInDim S8x128x64x64 ![] bcast_S_S8x128x64x64 main_cst_0
  let main_v6 : IVec S8x128x64x64 1 := cmpf .olt main_v4 main_v5
  let main_c_1 : IVec S_ 1 := constantI S_ 1 1#1
  let main_v7 : IVec S_ 1 := (fun x v => Host.reduce IntOp.andi x v reducesTo_S8x128x64x64_S_d0_1_2_3 h_S_) main_v6 main_c_1
  let main_v8 : IVec S_ 1 := andi main_v3 main_v7
  let main_v9 : FVec F S8x128x64x64 .f32 := Host.absf main_arg2
  let main_cst_2 : FVec F S_ .f32 := constant S_ .f32 0x7F800000#32
  let main_v10 : FVec F S8x128x64x64 .f32 := broadcastInDim S8x128x64x64 ![] bcast_S_S8x128x64x64 main_cst_2
  let main_v11 : IVec S8x128x64x64 1 := cmpf .olt main_v9 main_v10
  let main_c_3 : IVec S_ 1 := constantI S_ 1 1#1
  let main_v12 : IVec S_ 1 := (fun x v => Host.reduce IntOp.andi x v reducesTo_S8x128x64x64_S_d0_1_2_3 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S8x128x64x64 : Shape := ⟨4, ![8, 128, 64, 64]⟩
abbrev S8x64x128x128 : Shape := ⟨4, ![8, 64, 128, 128]⟩
abbrev S64x64 : Shape := ⟨2, ![64, 64]⟩
abbrev S64 : Shape := ⟨1, ![64]⟩
abbrev S8x128x4096 : Shape := ⟨3, ![8, 128, 4096]⟩
abbrev S1x64 : Shape := ⟨2, ![1, 64]⟩
abbrev S1x128x2048 : Shape := ⟨3, ![1, 128, 2048]⟩
abbrev S1x32x128x128 : Shape := ⟨4, ![1, 32, 128, 128]⟩
abbrev S128x2048 : Shape := ⟨2, ![128, 2048]⟩
abbrev S128x32x64 : Shape := ⟨3, ![128, 32, 64]⟩
abbrev S32x128x64 : Shape := ⟨3, ![32, 128, 64]⟩
abbrev S4096x64 : Shape := ⟨2, ![4096, 64]⟩
abbrev S32x128x128 : Shape := ⟨3, ![32, 128, 128]⟩
abbrev S32x128x16 : Shape := ⟨3, ![32, 128, 16]⟩
abbrev S32x128 : Shape := ⟨2, ![32, 128]⟩
abbrev S32x128x1 : Shape := ⟨3, ![32, 128, 1]⟩

abbrev nBuf : Space → Nat
  | .hbm => 21
  | .vmem => 18
  | .smem => 0
  | _ => 0

abbrev bufTy : (tb : Table) → Fin (tcTables nBuf tb) → BufTy
  | .hbm, ⟨0, _⟩ => ⟨S8x128x64x64, .f32⟩
  | .hbm, ⟨1, _⟩ => ⟨S8x128x64x64, .f32⟩
  | .hbm, ⟨2, _⟩ => ⟨S8x128x64x64, .f32⟩
  | .hbm, ⟨3, _⟩ => ⟨S8x64x128x128, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S8x128x4096, .f32⟩
  | .hbm, ⟨13, _⟩ => ⟨S8x128x4096, .f32⟩
  | .hbm, ⟨14, _⟩ => ⟨S8x128x4096, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S8x128x4096, .f32⟩
  | .hbm, ⟨20, _⟩ => ⟨S8x128x64x64, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x32x128x128, .i32⟩
  | .local _ .vmem, ⟨7, _⟩ => ⟨S1x32x128x128, .i32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S1x128x2048, .f32⟩
  | .local _ .vmem, ⟨17, _⟩ => ⟨S1x128x2048, .f32⟩
  | _, _ => ⟨S8x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x128x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  shapeCasts_S8x128x64x64_S8x128x4096 : S8x128x64x64.ShapeCasts S8x128x4096
  shapeCasts_S64_S1x64 : S64.ShapeCasts S1x64
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  bitsLt_bf16_f32 : FTy.bits .bf16 < FTy.bits .f32
  shapeCasts_S128x2048_S128x32x64 : S128x2048.ShapeCasts S128x32x64
  transposes_S128x32x64_p1_0_2_S32x128x64 : S128x32x64.Transposes [1, 0, 2] S32x128x64
  shapeCasts_S32x128x64_S4096x64 : S32x128x64.ShapeCasts S4096x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S4096x64_S32x128x64 : S4096x64.ShapeCasts S32x128x64
  inb_S1x32x128x128_S1x32x128x128_0_0_0_0 : ∀ a, (![0, 0, 0, 0] : Fin 4 → Nat) a + S1x32x128x128.size a ≤ S1x32x128x128.size a
  h_S1x32x128x128 : 0 < S1x32x128x128.numel
  shapeCasts_S1x32x128x128_S32x128x128 : S1x32x128x128.ShapeCasts S32x128x128
  slices_S32x128x64_o0_0_0_S32x128x16 : S32x128x64.Slices ![0, 0, 0] S32x128x16
  reduces_S32x128x128_S32x128 : S32x128x128.Reduces [2] S32x128
  shapeCasts_S32x128_S32x128x1 : S32x128.ShapeCasts S32x128x1
  broadcasts_S32x128x1_S32x128x128 : S32x128x1.Broadcasts S32x128x128
  slices_S32x128x64_o0_0_16_S32x128x16 : S32x128x64.Slices ![0, 0, 16] S32x128x16
  slices_S32x128x64_o0_0_32_S32x128x16 : S32x128x64.Slices ![0, 0, 32] S32x128x16
  slices_S32x128x64_o0_0_48_S32x128x16 : S32x128x64.Slices ![0, 0, 48] S32x128x16
  concatenates_S32x128x16_S32x128x16_S32x128x16_S32x128x16_S32x128x64_d2 : Shape.Concatenates [S32x128x16, S32x128x16, S32x128x16, S32x128x16] S32x128x64 2
  transposes_S32x128x64_p1_0_2_S128x32x64 : S32x128x64.Transposes [1, 0, 2] S128x32x64
  shapeCasts_S128x32x64_S128x2048 : S128x32x64.ShapeCasts S128x2048
  shapeCasts_S128x2048_S1x128x2048 : S128x2048.ShapeCasts S1x128x2048
  shapeCasts_S8x128x4096_S8x128x64x64 : S8x128x4096.ShapeCasts S8x128x64x64
  dot_S4096x64_S64x64_S4096x64_1_1_0_0_n_n_wf : DotDims.WF S4096x64 S64x64 S4096x64 [1] [1] [0] [0] [] []
  dot_S32x128x16_S32x128x16_S32x128x128_2_2_1_1_0_0_wf : DotDims.WF S32x128x16 S32x128x16 S32x128x128 [2] [2] [1] [1] [0] [0]
  dot_S32x128x128_S32x128x16_S32x128x16_2_1_1_2_0_0_wf : DotDims.WF S32x128x128 S32x128x16 S32x128x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x128x4096.size a
  hwx0_0 : ∀ i : grid0.Coords, EltTy.bits .f32 = 32 ∨ (Rect.block (s := S8x128x4096) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S8x128x4096.size a
  hwx0_1 : ∀ i : grid0.Coords, EltTy.bits .f32 = 32 ∨ (Rect.block (s := S8x128x4096) S1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S8x128x4096.size a
  hwx0_2 : ∀ i : grid0.Coords, EltTy.bits .f32 = 32 ∨ (Rect.block (s := S8x128x4096) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x128x128.size a ≤ S8x64x128x128.size a
  hwx0_3 : ∀ i : grid0.Coords, EltTy.bits .i32 = 32 ∨ (Rect.block (s := S8x64x128x128) S1x32x128x128.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128x2048.size a ≤ S8x128x4096.size a
  hwx0_12 : ∀ i : grid0.Coords, EltTy.bits .f32 = 32 ∨ (Rect.block (s := S8x128x4096) S1x128x2048.size (cc0_transform_12 i) (hinb0_12 i)).WholeWords (EltTy.packing .f32)

variable [Facts₀]

def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf
def dot_S32x128x16_S32x128x16_S32x128x128_2_2_1_1_0_0 : DotDims S32x128x16 S32x128x16 S32x128x128 where
  lhsContracting := [2]
  rhsContracting := [2]
  lhsNonContracting := [1]
  rhsNonContracting := [1]
  lhsBatch := [0]
  rhsBatch := [0]
  wf := dot_S32x128x16_S32x128x16_S32x128x128_2_2_1_1_0_0_wf
def dot_S32x128x128_S32x128x16_S32x128x16_2_1_1_2_0_0 : DotDims S32x128x128 S32x128x16 S32x128x16 where
  lhsContracting := [2]
  rhsContracting := [1]
  lhsNonContracting := [1]
  rhsNonContracting := [2]
  lhsBatch := [0]
  rhsBatch := [0]
  wf := dot_S32x128x128_S32x128x16_S32x128x16_2_1_1_2_0_0_wf

abbrev win0_0 : Pipeline.Window sig grid0 :=
  Pipeline.Window.ofSpec (Memref.whole main_v0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x32x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x128x2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8x128x64x64 : Shape := ⟨4, ![8, 128, 64, 64]⟩
abbrev S8x64x128x128 : Shape := ⟨4, ![8, 64, 128, 128]⟩
abbrev S64x64 : Shape := ⟨2, ![64, 64]⟩
abbrev S64 : Shape := ⟨1, ![64]⟩
abbrev S1x1x1x64 : Shape := ⟨4, ![1, 1, 1, 64]⟩
abbrev S8x128x64x4x16 : Shape := ⟨5, ![8, 128, 64, 4, 16]⟩
abbrev S8x4x64x128x16 : Shape := ⟨5, ![8, 4, 64, 128, 16]⟩
abbrev S8x4x64x128x128 : Shape := ⟨5, ![8, 4, 64, 128, 128]⟩
abbrev S_ : Shape := ⟨0, ![]⟩
abbrev S8x1x64x128x128 : Shape := ⟨5, ![8, 1, 64, 128, 128]⟩
abbrev S8x4x64x128 : Shape := ⟨4, ![8, 4, 64, 128]⟩
abbrev S8x4x64x128x1 : Shape := ⟨5, ![8, 4, 64, 128, 1]⟩

abbrev nBuf : Space → Nat
  | .hbm => 63
  | .vmem => 0
  | .smem => 0
  | _ => 0

abbrev bufTy : (tb : Table) → Fin (tcTables nBuf tb) → BufTy
  | .hbm, ⟨0, _⟩ => ⟨S8x128x64x64, .f32⟩
  | .hbm, ⟨1, _⟩ => ⟨S8x128x64x64, .f32⟩
  | .hbm, ⟨2, _⟩ => ⟨S8x128x64x64, .f32⟩
  | .hbm, ⟨3, _⟩ => ⟨S8x64x128x128, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S8x128x64x64, .f32⟩
  | .hbm, ⟨13, _⟩ => ⟨S1x1x1x64, .f32⟩
  | .hbm, ⟨14, _⟩ => ⟨S8x128x64x64, .f32⟩
  | .hbm, ⟨15, _⟩ => ⟨S8x128x64x64, .f32⟩
  | .hbm, ⟨16, _⟩ => ⟨S8x128x64x4x16, .f32⟩
  | .hbm, ⟨17, _⟩ => ⟨S8x4x64x128x16, .f32⟩
  | .hbm, ⟨18, _⟩ => ⟨S8x128x64x64, .f32⟩
  | .hbm, ⟨19, _⟩ => ⟨S1x1x1x64, .f32⟩
  | .hbm, ⟨20, _⟩ => ⟨S8x128x64x64, .f32⟩
  | .hbm, ⟨21, _⟩ => ⟨S8x128x64x64, .f32⟩
  | .hbm, ⟨22, _⟩ => ⟨S8x128x64x4x16, .f32⟩
  | .hbm, ⟨23, _⟩ => ⟨S8x4x64x128x16, .f32⟩
  | .hbm, ⟨24, _⟩ => ⟨S8x128x64x64, .f32⟩
  | .hbm, ⟨25, _⟩ => ⟨S1x1x1x64, .f32⟩
  | .hbm, ⟨26, _⟩ => ⟨S8x128x64x64, .f32⟩
  | .hbm, ⟨27, _⟩ => ⟨S8x128x64x64, .f32⟩
  | .hbm, ⟨28, _⟩ => ⟨S8x128x64x4x16, .f32⟩
  | .hbm, ⟨29, _⟩ => ⟨S8x4x64x128x16, .f32⟩
  | .hbm, ⟨30, _⟩ => ⟨S8x4x64x128x128, .f32⟩
  | .hbm, ⟨31, _⟩ => ⟨S_, .f32⟩
  | .hbm, ⟨32, _⟩ => ⟨S8x4x64x128x128, .f32⟩
  | .hbm, ⟨33, _⟩ => ⟨S8x4x64x128x128, .f32⟩
  | .hbm, ⟨34, _⟩ => ⟨S8x1x64x128x128, .i32⟩
  | .hbm, ⟨35, _⟩ => ⟨S_, .i32⟩
  | .hbm, ⟨36, _⟩ => ⟨S8x1x64x128x128, .i32⟩
  | .hbm, ⟨37, _⟩ => ⟨S8x1x64x128x128, .i1⟩
  | .hbm, ⟨38, _⟩ => ⟨S_, .f32⟩
  | .hbm, ⟨39, _⟩ => ⟨S8x4x64x128x128, .i1⟩
  | .hbm, ⟨40, _⟩ => ⟨S8x4x64x128x128, .f32⟩
  | .hbm, ⟨41, _⟩ => ⟨S8x4x64x128x128, .f32⟩
  | .hbm, ⟨42, _⟩ => ⟨S_, .f32⟩
  | .hbm, ⟨43, _⟩ => ⟨S8x4x64x128, .f32⟩
  | .hbm, ⟨44, _⟩ => ⟨S_, .f32⟩
  | .hbm, ⟨45, _⟩ => ⟨S8x4x64x128, .f32⟩
  | .hbm, ⟨46, _⟩ => ⟨S8x4x64x128, .f32⟩
  | .hbm, ⟨47, _⟩ => ⟨S8x4x64x128x1, .f32⟩
  | .hbm, ⟨48, _⟩ => ⟨S8x4x64x128x128, .f32⟩
  | .hbm, ⟨49, _⟩ => ⟨S8x4x64x128x128, .f32⟩
  | .hbm, ⟨50, _⟩ => ⟨S8x4x64x128x128, .f32⟩
  | .hbm, ⟨51, _⟩ => ⟨S_, .f32⟩
  | .hbm, ⟨52, _⟩ => ⟨S8x4x64x128, .f32⟩
  | .hbm, ⟨53, _⟩ => ⟨S8x4x64x128x1, .f32⟩
  | .hbm, ⟨54, _⟩ => ⟨S8x4x64x128x128, .f32⟩
  | .hbm, ⟨55, _⟩ => ⟨S8x4x64x128x128, .f32⟩
  | .hbm, ⟨56, _⟩ => ⟨S8x4x64x128x16, .f32⟩
  | .hbm, ⟨57, _⟩ => ⟨S8x128x64x4x16, .f32⟩
  | .hbm, ⟨58, _⟩ => ⟨S8x128x64x64, .f32⟩
  | .hbm, ⟨59, _⟩ => ⟨S8x128x64x64, .f32⟩
  | .hbm, ⟨60, _⟩ => ⟨S1x1x1x64, .f32⟩
  | .hbm, ⟨61, _⟩ => ⟨S8x128x64x64, .f32⟩
  | .hbm, ⟨62, _⟩ => ⟨S8x128x64x64, .f32⟩
  | _, _ => ⟨S8x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S8x128x64x64_0_1_2_3 : S1x1x1x64.BroadcastsInDim S8x128x64x64 (![0, 1, 2, 3] : Fin 4 → Fin S8x128x64x64.rank)
  shapeCasts_S8x128x64x64_S8x128x64x4x16 : S8x128x64x64.ShapeCasts S8x128x64x4x16
  transposes_S8x128x64x4x16_S8x4x64x128x16_0_3_2_1_4 : S8x128x64x4x16.Transposes [0, 3, 2, 1, 4] S8x4x64x128x16
  bcast_S_S8x4x64x128x128 : S_.BroadcastsInDim S8x4x64x128x128 (![] : Fin 0 → Fin S8x4x64x128x128.rank)
  bcast_S8x64x128x128_S8x1x64x128x128_0_2_3_4 : S8x64x128x128.BroadcastsInDim S8x1x64x128x128 (![0, 2, 3, 4] : Fin 4 → Fin S8x1x64x128x128.rank)
  bcast_S_S8x1x64x128x128 : S_.BroadcastsInDim S8x1x64x128x128 (![] : Fin 0 → Fin S8x1x64x128x128.rank)
  bcast_S8x1x64x128x128_S8x4x64x128x128_0_1_2_3_4 : S8x1x64x128x128.BroadcastsInDim S8x4x64x128x128 (![0, 1, 2, 3, 4] : Fin 5 → Fin S8x4x64x128x128.rank)
  reducesTo_S8x4x64x128x128_S8x4x64x128_d4 : S8x4x64x128x128.ReducesTo [4] S8x4x64x128
  h_S_ : 0 < S_.numel
  bcast_S_S8x4x64x128 : S_.BroadcastsInDim S8x4x64x128 (![] : Fin 0 → Fin S8x4x64x128.rank)
  bcast_S8x4x64x128_S8x4x64x128x1_0_1_2_3 : S8x4x64x128.BroadcastsInDim S8x4x64x128x1 (![0, 1, 2, 3] : Fin 4 → Fin S8x4x64x128x1.rank)
  bcast_S8x4x64x128x1_S8x4x64x128x128_0_1_2_3_4 : S8x4x64x128x1.BroadcastsInDim S8x4x64x128x128 (![0, 1, 2, 3, 4] : Fin 5 → Fin S8x4x64x128x128.rank)
  transposes_S8x4x64x128x16_S8x128x64x4x16_0_3_2_1_4 : S8x4x64x128x16.Transposes [0, 3, 2, 1, 4] S8x128x64x4x16
  shapeCasts_S8x128x64x4x16_S8x128x64x64 : S8x128x64x4x16.ShapeCasts S8x128x64x64
  dot_S8x128x64x64_S64x64_S8x128x64x64_3_1_012_0_n_n_wf : DotDims.WF S8x128x64x64 S64x64 S8x128x64x64 [3] [1] [0, 1, 2] [0] [] []
  dot_S8x4x64x128x16_S8x4x64x128x16_S8x4x64x128x128_4_4_3_3_012_012_wf : DotDims.WF S8x4x64x128x16 S8x4x64x128x16 S8x4x64x128x128 [4] [4] [3] [3] [0, 1, 2] [0, 1, 2]
  dot_S8x4x64x128x128_S8x4x64x128x16_S8x4x64x128x16_4_3_3_4_012_012_wf : DotDims.WF S8x4x64x128x128 S8x4x64x128x16 S8x4x64x128x16 [4] [3] [3] [4] [0, 1, 2] [0, 1, 2]

variable [Facts₀]

def dot_S8x128x64x64_S64x64_S8x128x64x64_3_1_012_0_n_n : DotDims S8x128x64x64 S64x64 S8x128x64x64 where
  lhsContracting := [3]
  rhsContracting := [1]
  lhsNonContracting := [0, 1, 2]
  rhsNonContracting := [0]
  lhsBatch := []
  rhsBatch := []
  wf := dot_S8x128x64x64_S64x64_S8x128x64x64_3_1_012_0_n_n_wf
def dot_S8x4x64x128x16_S8x4x64x128x16_S8x4x64x128x128_4_4_3_3_012_012 : DotDims S8x4x64x128x16 S8x4x64x128x16 S8x4x64x128x128 where
  lhsContracting := [4]
  rhsContracting := [4]
  lhsNonContracting := [3]
  rhsNonContracting := [3]
  lhsBatch := [0, 1, 2]
  rhsBatch := [0, 1, 2]
  wf := dot_S8x4x64x128x16_S8x4x64x128x16_S8x4x64x128x128_4_4_3_3_012_012_wf
def dot_S8x4x64x128x128_S8x4x64x128x16_S8x4x64x128x16_4_3_3_4_012_012 : DotDims S8x4x64x128x128 S8x4x64x128x16 S8x4x64x128x16 where
  lhsContracting := [4]
  rhsContracting := [3]
  lhsNonContracting := [3]
  rhsNonContracting := [4]
  lhsBatch := [0, 1, 2]
  rhsBatch := [0, 1, 2]
  wf := dot_S8x4x64x128x128_S8x4x64x128x16_S8x4x64x128x16_4_3_3_4_012_012_wf

class Facts : Prop extends Facts₀ where

variable [Facts]
-- ==== Proof.Spec.lean ====
/-
  Multi-head attention, row by row, on the extended reals: the one function both programs compute.

  For one batch entry, one sequence position t and one node n, write Q d for the projected query
  row, K s d and V s d for the projected key and value rows of every position s, and mb s for
  the mask bit of the pair (t, s).  Head h owns the 16 feature lanes 16 h .. 16 h + 15.  Its score
  against position s is the dot product of the two rows over those lanes, passed through post
  (the reference divides by 4 there; the kernel has already multiplied Q by 1/4), and replaced by
  -1e9 where the mask bit is set.  The softmax over s weighs the value rows, the four heads are laid
  side by side again, and the output projection wp, bp finishes the row.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The masked-score fill, -1e9 as an f32. -/
def negBig : EReal := Ideal.ofBits .f32 0xCE6E6B28#32
/-- The neutral element of the row maximum, -inf. -/
def negInf : EReal := Ideal.ofBits .f32 0xFF800000#32
/-- sqrt 16 = 4, the reference's divisor. -/
def four : EReal := Ideal.ofBits .f32 0x40800000#32
/-- 1 / sqrt 16 = 1/4, the kernel's factor. -/
def quarter : EReal := Ideal.ofBits .f32 0x3E800000#32

/-- An extended real that is a real number. -/
def IsReal (x : EReal) : Prop := ∃ r : ℝ, x = (r : EReal)

/-- Lane dd of head h among the 64 feature lanes. -/
def hd (h : Fin 4) (dd : Fin 16) : Fin 64 := ⟨h.val * 16 + dd.val, by omega⟩
/-- The head that owns feature lane d. -/
def headOf (d : Fin 64) : Fin 4 := ⟨d.val / 16, by omega⟩
/-- Feature d of node n among the 2048 lanes of a block row. -/
def lane (n : Fin 32) (d : Fin 64) : Fin 2048 := ⟨n.val * 64 + d.val, by omega⟩
/-- Row t of node n among the 4096 rows of a block's flattened matrix. -/
def row (n : Fin 32) (t : Fin 128) : Fin 4096 := ⟨n.val * 128 + t.val, by omega⟩

/-- A dot product over the 64 feature lanes. -/
def dot64 (a b : Fin 64 → EReal) : EReal := ∑ d : Fin 64, a d * b d

/-- The maximum of a row of 128 scores (from -inf). -/
def rowMax (sc : Fin 128 → EReal) : EReal := (Finset.univ : Finset (Fin 128)).fold max negInf sc

/-- The softmax weight of position s in a row of scores. -/
def attn (sc : Fin 128 → EReal) (s : Fin 128) : EReal :=
  Ideal.div (Ideal.exp (sc s - rowMax sc)) (∑ s' : Fin 128, Ideal.exp (sc s' - rowMax sc))

/-- A row of values mixed by the softmax of a row of scores. -/
def mix (sc v : Fin 128 → EReal) : EReal := ∑ s : Fin 128, attn sc s * v s

/-- Head h's masked score of a query row against a key row. -/
def scoreOf (post : EReal → EReal) (Q K : Fin 64 → EReal) (mbit : BitVec 1) (h : Fin 4) : EReal :=
  Scalar.select mbit negBig (post (∑ dd : Fin 16, Q (hd h dd) * K (hd h dd)))

/-- Feature lane d of the attention context of one query row. -/
def ctxOf (post : EReal → EReal) (Q : Fin 64 → EReal) (K V : Fin 128 → Fin 64 → EReal) (mb : Fin 128 → BitVec 1)
    (d : Fin 64) : EReal :=
  mix (fun s => scoreOf post Q (K s) (mb s) (headOf d)) (fun s => V s d)

/-- Output feature e of one query row: the context through the output projection. -/
def outOf (post : EReal → EReal) (Q : Fin 64 → EReal) (K V : Fin 128 → Fin 64 → EReal) (mb : Fin 128 → BitVec 1)
    (wp : Fin 64 → Fin 64 → EReal) (bp : Fin 64 → EReal) (e : Fin 64) : EReal :=
  dot64 (fun d => ctxOf post Q K V mb d) (fun d => wp e d) + bp e

/-! ## The two readings of the inputs -/

/-- The activations [batch, position, node, feature]. -/
abbrev Act : Shape := ⟨4, ![8, 128, 64, 64]⟩
/-- A weight matrix [out feature, in feature]. -/
abbrev Wt : Shape := ⟨2, ![64, 64]⟩
/-- A bias vector. -/
abbrev Bias : Shape := ⟨1, ![64]⟩
/-- The mask [batch, node, query position, key position]. -/
abbrev Msk : Shape := ⟨4, ![8, 64, 128, 128]⟩
/-- One block of activations: one batch entry, all positions, 32 nodes' features side by side. -/
abbrev Blk : Shape := ⟨3, ![1, 128, 2048]⟩
/-- A bias as the kernel holds it, one row. -/
abbrev BiasRow : Shape := ⟨2, ![1, 64]⟩
/-- One block of the mask: one batch entry, 32 nodes. -/
abbrev MskBlk : Shape := ⟨4, ![1, 32, 128, 128]⟩

/-- The linear layer on whole arrays: feature e of position t, node n, batch entry bi. -/
def lin (x : Act.Idx → EReal) (w : Wt.Idx → EReal) (b : Bias.Idx → EReal) (bi : Fin 8) (t : Fin 128) (n : Fin 64)
    (e : Fin 64) : EReal :=
  dot64 (fun d => x (ix4 bi t n d)) (fun d => w (ix2 e d)) + b (ix1 e)

/-- The same layer read off one block. -/
def blkLin (x : Blk.Idx → EReal) (w : Wt.Idx → EReal) (b : BiasRow.Idx → EReal) (n : Fin 32) (t : Fin 128)
    (e : Fin 64) : EReal :=
  dot64 (fun d => x (ix3 0 t (lane n d))) (fun d => w (ix2 e d)) + b (ix2 0 e)

/-- The reference's value at an index of the result array. -/
def refOut (xq xk xv : Act.Idx → EReal) (mask : Msk.Idx → BitVec 32) (wq : Wt.Idx → EReal) (bq : Bias.Idx → EReal)
    (wk : Wt.Idx → EReal) (bk : Bias.Idx → EReal) (wv : Wt.Idx → EReal) (bv : Bias.Idx → EReal) (wp : Wt.Idx → EReal)
    (bp : Bias.Idx → EReal) (bi : Fin 8) (t : Fin 128) (n : Fin 64) (e : Fin 64) : EReal :=
  outOf (fun z => Ideal.div z four) (fun d => lin xq wq bq bi t n d) (fun s d => lin xk wk bk bi s n d)
    (fun s d => lin xv wv bv bi s n d) (fun s => IntOp.cmpi .ne (mask (ix4 bi n t s)) 0#32)
    (fun e d => wp (ix2 e d)) (fun e => bp (ix1 e)) e

/-- The kernel's value at position t, node n, feature e of one output block, from the input blocks. -/
def blkOut (xq xk xv : Blk.Idx → EReal) (mask : MskBlk.Idx → BitVec 32) (wq : Wt.Idx → EReal) (bq : BiasRow.Idx → EReal)
    (wk : Wt.Idx → EReal) (bk : BiasRow.Idx → EReal) (wv : Wt.Idx → EReal) (bv : BiasRow.Idx → EReal) (wp : Wt.Idx → EReal)
    (bp : BiasRow.Idx → EReal) (t : Fin 128) (n : Fin 32) (e : Fin 64) : EReal :=
  outOf id (fun d => blkLin xq wq bq n t d * quarter) (fun s d => blkLin xk wk bk n s d)
    (fun s d => blkLin xv wv bv n s d) (fun s => IntOp.cmpi .ne (mask (ix4 0 n t s)) 0#32)
    (fun e d => wp (ix2 e d)) (fun e => bp (ix2 0 e)) e

end Cert.Attention

end
-- ==== Proof.KProj.lean ====
/-
  The block's linear layers read at an index.

  A block of activations [1, 128 positions, 32 nodes x 64 features] is regrouped to one row per
  (node, position), multiplied with the transposed weight matrix and shifted by the bias: feature e of
  node n at position t is the dot product of the 64 lanes of that node in row t with row e of the
  weights, plus bias e (the queries are also scaled by 1/4).  The output projection does the same to the
  merged heads and lays the result back out as [1, 128, 32 x 64].
-/
import proofs.«400098_j70274254897372_3_alg».proof.Proof.Gen.KernelIdeal.Skeleton
import proofs.«400098_j70274254897372_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Attention.Kern

open Idealize.ShloMosaic Idealize.ShloMosaic.ValueIdx Cert.KernelIdeal Cert.KernelIdeal.Gen Cert.Attention

/-! ## The matrix product of a [4096, 64] matrix with a [64, 64] matrix, both contracted on their feature axis -/

/-- The left operand's row is the result's row. -/
private theorem mm_lhs_0 (i : S4096x64.Idx) (q : dot_S4096x64_S64x64_S4096x64_1_1_0_0_n_n.contr.Idx) :
    (dot_S4096x64_S64x64_S4096x64_1_1_0_0_n_n.lhsIdx i q 0).val = (i 0).val := by
  unfold DotDims.lhsIdx
  rw [dif_neg (show ¬(0 : Fin S4096x64.rank) ∈ dot_S4096x64_S64x64_S4096x64_1_1_0_0_n_n.lhsBatch by decide), dif_pos (show (0 : Fin S4096x64.rank) ∈ dot_S4096x64_S64x64_S4096x64_1_1_0_0_n_n.lhsNonContracting by decide)]
  rfl
/-- The left operand's column is the contraction position. -/
private theorem mm_lhs_1 (i : S4096x64.Idx) (q : dot_S4096x64_S64x64_S4096x64_1_1_0_0_n_n.contr.Idx) :
    (dot_S4096x64_S64x64_S4096x64_1_1_0_0_n_n.lhsIdx i q 1).val = (q ⟨0, by decide⟩).val :=
  dot_S4096x64_S64x64_S4096x64_1_1_0_0_n_n.lhsIdx_val_of_single rfl i q
/-- The right operand's row is the result's column. -/
private theorem mm_rhs_0 (i : S4096x64.Idx) (q : dot_S4096x64_S64x64_S4096x64_1_1_0_0_n_n.contr.Idx) :
    (dot_S4096x64_S64x64_S4096x64_1_1_0_0_n_n.rhsIdx i q 0).val = (i 1).val := by
  unfold DotDims.rhsIdx
  rw [dif_neg (show ¬(0 : Fin S64x64.rank) ∈ dot_S4096x64_S64x64_S4096x64_1_1_0_0_n_n.rhsBatch by decide), dif_pos (show (0 : Fin S64x64.rank) ∈ dot_S4096x64_S64x64_S4096x64_1_1_0_0_n_n.rhsNonContracting by decide)]
  rfl
/-- The right operand's column is the contraction position. -/
private theorem mm_rhs_1 (i : S4096x64.Idx) (q : dot_S4096x64_S64x64_S4096x64_1_1_0_0_n_n.contr.Idx) :
    (dot_S4096x64_S64x64_S4096x64_1_1_0_0_n_n.rhsIdx i q 1).val = (q ⟨0, by decide⟩).val :=
  dot_S4096x64_S64x64_S4096x64_1_1_0_0_n_n.rhsIdx_val_of_single rfl i q

/-- Entry (r, e) of the product into the zero accumulator: the dot product of row r of the left operand
    with row e of the right one. -/
private theorem mm_apply {φ₁ φ₂ : FTy} (lhs : FVec Ideal S4096x64 φ₁) (rhs : FVec Ideal S64x64 φ₂) (r : Fin 4096) (e : Fin 64) :
    matmul dot_S4096x64_S64x64_S4096x64_1_1_0_0_n_n none lhs rhs (constant S4096x64 .f32 0x00000000#32) (ix2 r e)
      = ∑ d : Fin 64, lhs (ix2 r d) * rhs (ix2 e d) := by
  simp only [matmul]
  rw [Ideal.matmul_constant_zero_apply, ← Equiv.sum_comp (contrEquiv1 dot_S4096x64_S64x64_S4096x64_1_1_0_0_n_n 64 rfl rfl).symm]
  refine Finset.sum_congr rfl fun k _ => ?_
  have hk := contrEquiv1_symm_val dot_S4096x64_S64x64_S4096x64_1_1_0_0_n_n 64 rfl rfl k
  have el : dot_S4096x64_S64x64_S4096x64_1_1_0_0_n_n.lhsIdx (ix2 r e) ((contrEquiv1 dot_S4096x64_S64x64_S4096x64_1_1_0_0_n_n 64 rfl rfl).symm k) = ix2 r k := funext fun a => Fin.ext (by
    match a with
    | ⟨0, _⟩ => exact mm_lhs_0 _ _
    | ⟨1, _⟩ => exact (mm_lhs_1 _ _).trans hk)
  have er : dot_S4096x64_S64x64_S4096x64_1_1_0_0_n_n.rhsIdx (ix2 r e) ((contrEquiv1 dot_S4096x64_S64x64_S4096x64_1_1_0_0_n_n 64 rfl rfl).symm k) = ix2 e k := funext fun a => Fin.ext (by
    match a with
    | ⟨0, _⟩ => exact mm_rhs_0 _ _
    | ⟨1, _⟩ => exact (mm_rhs_1 _ _).trans hk)
  rw [el, er]

/-! ## The layout steps at an index -/

/-- The flattened matrix [4096, 64] regrouped as [32 nodes, 128 positions, 64 features]: entry (n, t, e) is
    row n * 128 + t, column e. -/
private theorem unflat_apply {α : Type} (v : S4096x64.Idx → α) (h : S4096x64.ShapeCasts S32x128x64)
    (n : Fin 32) (t : Fin 128) (e : Fin 64) :
    shapeCast S32x128x64 v h (ix3 n t e) = v (ix2 (row n t) e) :=
  shapeCast_apply v h _ _ (by
    rw [Shape.rowMajor_val_two, Shape.rowMajor_val_three]
    show (n.val * 128 + t.val) * 64 + e.val = (n.val * 128 + t.val) * 64 + e.val
    rfl)

/-- The regrouped block: row n * 128 + t of the flattened matrix holds the 64 lanes of node n in row t of
    the block. -/
private theorem rows_apply (x : Vec Ideal S1x128x2048 .f32) (n : Fin 32) (t : Fin 128) (d : Fin 64) :
    k0_pay4 (F := Ideal) x (ix2 (row n t) d) = x (ix3 0 t (lane n d)) := by
  unfold k0_pay4
  refine (shapeCast_apply _ _ _ (ix3 n t d) ?_).trans ?_
  · rw [Shape.rowMajor_val_three, Shape.rowMajor_val_two]
    show (n.val * 128 + t.val) * 64 + d.val = (n.val * 128 + t.val) * 64 + d.val
    rfl
  refine (transpose_apply _ _ _ _ (ix3 t n d) ?_).trans ?_
  · intro a
    match a with
    | ⟨0, _⟩ => rfl
    | ⟨1, _⟩ => rfl
    | ⟨2, _⟩ => rfl
  refine (shapeCast_apply _ _ _ (ix2 t (lane n d)) ?_).trans ?_
  · rw [Shape.rowMajor_val_two, Shape.rowMajor_val_three]
    show t.val * 2048 + (n.val * 64 + d.val) = (t.val * 32 + n.val) * 64 + d.val
    omega
  rw [truncf_apply]
  exact shapeCast_1ab_ab_apply x _ t (lane n d)

/-! ## The linear layer on the flattened matrix -/

/-- A [4096, 64] matrix times the transposed weights, plus the bias row on every row. -/
private def linMat (c : FVec Ideal S4096x64 .bf16) (w : Vec Ideal S64x64 .f32) (b : Vec Ideal S1x64 .f32) :
    FVec Ideal S4096x64 .f32 :=
  addf
    (matmul dot_S4096x64_S64x64_S4096x64_1_1_0_0_n_n none c (truncf .bf16 w bitsLt_bf16_f32)
      (constant S4096x64 .f32 0x00000000#32))
    (broadcastTo S4096x64 (shapeCast S1x64 b shapeCasts_S1x64_S1x64) broadcasts_S1x64_S4096x64)

/-- Entry (r, e) of the linear layer: row r against row e of the weights, plus bias e. -/
private theorem linMat_apply (c : FVec Ideal S4096x64 .bf16) (w : Vec Ideal S64x64 .f32) (b : Vec Ideal S1x64 .f32)
    (r : Fin 4096) (e : Fin 64) :
    linMat c w b (ix2 r e) = dot64 (fun d => c (ix2 r d)) (fun d => w (ix2 e d)) + b (ix2 0 e) := by
  unfold linMat
  rw [addf_apply, mm_apply]
  refine congrArg₂ (· + ·) rfl ?_
  refine (broadcastTo_1b_ab_apply _ _ r e).trans ?_
  exact shapeCast_apply b _ _ _ rfl

/-! ## The five payloads -/

/-- The scaled query projection of a block at node n, position t, feature e. -/
theorem pay2_apply (x : Vec Ideal S1x128x2048 .f32) (w : Vec Ideal S64x64 .f32) (b : Vec Ideal S1x64 .f32)
    (n : Fin 32) (t : Fin 128) (e : Fin 64) :
    k0_pay2 (F := Ideal) x w b (ix3 n t e) = blkLin x w b n t e * quarter := by
  have h : k0_pay2 (F := Ideal) x w b
      = truncf .bf16 (shapeCast S32x128x64
          (mulf (linMat (k0_pay4 (F := Ideal) x) w b) (broadcast S4096x64 (Scalar.ofBits (F := Ideal) .f32 0x3E800000#32)))
          shapeCasts_S4096x64_S32x128x64) bitsLt_bf16_f32 := rfl
  rw [h, truncf_apply, unflat_apply, mulf_apply, linMat_apply, broadcast_apply]
  unfold blkLin
  simp only [rows_apply]
  rfl

/-- The key projection of a block at node n, position t, feature e. -/
theorem pay3_apply (x : Vec Ideal S1x128x2048 .f32) (w : Vec Ideal S64x64 .f32) (b : Vec Ideal S1x64 .f32)
    (n : Fin 32) (t : Fin 128) (e : Fin 64) :
    k0_pay3 (F := Ideal) x w b (ix3 n t e) = blkLin x w b n t e := by
  have h : k0_pay3 (F := Ideal) x w b
      = truncf .bf16 (shapeCast S32x128x64 (linMat (k0_pay4 (F := Ideal) x) w b) shapeCasts_S4096x64_S32x128x64) bitsLt_bf16_f32 := rfl
  rw [h, truncf_apply, unflat_apply, linMat_apply]
  unfold blkLin
  simp only [rows_apply]

/-- The value projection of a block at node n, position t, feature e. -/
theorem pay54_apply (x : Vec Ideal S1x128x2048 .f32) (w : Vec Ideal S64x64 .f32) (b : Vec Ideal S1x64 .f32)
    (n : Fin 32) (t : Fin 128) (e : Fin 64) :
    k0_pay5 (F := Ideal) (k0_pay4 (F := Ideal) x) w b (ix3 n t e) = blkLin x w b n t e :=
  pay3_apply x w b n t e

/-- The mask bit of node n, query position t, key position s: the mask word is not zero. -/
theorem pay6_apply (x : Vec Ideal S1x32x128x128 .i32) (n : Fin 32) (t s : Fin 128) :
    k0_pay6 (F := Ideal) x (ix3 n t s) = IntOp.cmpi .ne (x (ix4 0 n t s)) 0#32 := by
  have h : k0_pay6 (F := Ideal) x (ix3 n t s)
      = IntOp.cmpi .ne (shapeCast S32x128x128 x shapeCasts_S1x32x128x128_S32x128x128 (ix3 n t s)) 0#32 := rfl
  rw [h, shapeCast_1abc_abc_apply]

/-- The output projection of the merged heads c [4096 rows, 64 features], laid out as the output block:
    position t, node n, feature e. -/
theorem pay1_apply (c : FVec Ideal S4096x64 .bf16) (w : Vec Ideal S64x64 .f32) (b : Vec Ideal S1x64 .f32)
    (t : Fin 128) (n : Fin 32) (e : Fin 64) :
    k0_pay1 (F := Ideal) c w b (ix3 0 t (lane n e))
      = dot64 (fun d => c (ix2 (row n t) d)) (fun d => w (ix2 e d)) + b (ix2 0 e) := by
  have h : k0_pay1 (F := Ideal) c w b
      = shapeCast S1x128x2048
          (shapeCast S128x2048
            (transpose S128x32x64 [1, 0, 2]
              (shapeCast S32x128x64 (linMat c w b) shapeCasts_S4096x64_S32x128x64)
              transposes_S32x128x64_p1_0_2_S128x32x64)
            shapeCasts_S128x32x64_S128x2048)
          shapeCasts_S128x2048_S1x128x2048 := rfl
  rw [h]
  refine (shapeCast_ab_1ab_apply _ _ 0 t (lane n e)).trans ?_
  refine (shapeCast_apply _ _ _ (ix3 t n e) ?_).trans ?_
  · rw [Shape.rowMajor_val_three, Shape.rowMajor_val_two]
    show (t.val * 32 + n.val) * 64 + e.val = t.val * 2048 + (n.val * 64 + e.val)
    omega
  refine (transpose_apply _ _ _ _ (ix3 n t e) ?_).trans ?_
  · intro a
    match a with
    | ⟨0, _⟩ => rfl
    | ⟨1, _⟩ => rfl
    | ⟨2, _⟩ => rfl
  rw [unflat_apply, linMat_apply]

end Cert.Attention.Kern

end
-- ==== Proof.KHead.lean ====
/-
  One attention head inside a block, read at an index.

  From the block's projected queries, keys and values [32 nodes, 128 positions, 64 features] and its mask
  bits [32, 128, 128], head h takes the 16 feature lanes from 16 h on of each, forms the 128 x 128 scores
  of every node, fills the masked ones, takes the row softmax and mixes the value rows with it.  At node n,
  position t and lane dd of the head the result is the softmax mix of Spec.lean over the positions s.
-/
import proofs.«400098_j70274254897372_3_alg».proof.Proof.Gen.KernelIdeal.Skeleton
import proofs.«400098_j70274254897372_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Attention.Kern

open Idealize.ShloMosaic Idealize.ShloMosaic.ValueIdx Cert.KernelIdeal Cert.KernelIdeal.Gen Cert.Attention

/-- One head of the block: slices at the lane offset off, scores, mask fill, row softmax, mix. -/
def headVec (off : Fin 3 → Nat) (hs : S32x128x64.Slices off S32x128x16) (q k v : FVec Ideal S32x128x64 .bf16)
    (mk : IVec S32x128x128 1) : FVec Ideal S32x128x16 .bf16 :=
  have qh : FVec Ideal S32x128x16 .bf16 := extractStridedSlice S32x128x16 off q hs
  have kh : FVec Ideal S32x128x16 .bf16 := extractStridedSlice S32x128x16 off k hs
  have vh : FVec Ideal S32x128x16 .bf16 := extractStridedSlice S32x128x16 off v hs
  have sc0 : FVec Ideal S32x128x128 .f32 := matmul dot_S32x128x16_S32x128x16_S32x128x128_2_2_1_1_0_0 none qh kh (constant S32x128x128 .f32 0x00000000#32)
  have sc : FVec Ideal S32x128x128 .f32 := select mk (broadcast S32x128x128 (Scalar.ofBits .f32 0xCE6E6B28#32)) sc0
  have mx : FVec Ideal S32x128 .f32 := multiReduction .maximumf [2] S32x128 sc 0xFF800000#32 reduces_S32x128x128_S32x128 (.inl rfl) rfl
  have ex : FVec Ideal S32x128x128 .f32 := exp (subf sc (broadcastTo S32x128x128 (shapeCast S32x128x1 mx shapeCasts_S32x128_S32x128x1) broadcasts_S32x128x1_S32x128x128))
  have sm : FVec Ideal S32x128 .f32 := multiReduction .add [2] S32x128 ex 0x00000000#32 reduces_S32x128x128_S32x128 (.inl rfl) rfl
  have aw : FVec Ideal S32x128x128 .bf16 := truncf .bf16 (divf ex (broadcastTo S32x128x128 (shapeCast S32x128x1 sm shapeCasts_S32x128_S32x128x1) broadcasts_S32x128x1_S32x128x128)) bitsLt_bf16_f32
  truncf .bf16 (matmul dot_S32x128x128_S32x128x16_S32x128x16_2_1_1_2_0_0 none aw vh (constant S32x128x16 .f32 0x00000000#32)) bitsLt_bf16_f32

/-! ## The lane slice of a head -/

/-- The 16 lanes from 16 h on of a [32, 128, 64] array, read at (n, t, dd): the array at lane 16 h + dd. -/
private theorem slice_apply (h : Fin 4) (hs : S32x128x64.Slices ![0, 0, 16 * h.val] S32x128x16)
    (x : FVec Ideal S32x128x64 .bf16) (n : Fin 32) (t : Fin 128) (dd : Fin 16) :
    extractStridedSlice S32x128x16 ![0, 0, 16 * h.val] x hs (ix3 n t dd) = x (ix3 n t (hd h dd)) :=
  extractStridedSlice_apply _ _ _ _ _ (fun a => by
    match a with
    | ⟨0, _⟩ => exact (Nat.zero_add _).symm
    | ⟨1, _⟩ => exact (Nat.zero_add _).symm
    | ⟨2, _⟩ => show h.val * 16 + dd.val = 16 * h.val + dd.val; omega)

/-! ## The score product: contraction over the 16 lanes, one product per node -/

private theorem lhs_qk_0 (i : S32x128x128.Idx) (c : dot_S32x128x16_S32x128x16_S32x128x128_2_2_1_1_0_0.contr.Idx) :
    (dot_S32x128x16_S32x128x16_S32x128x128_2_2_1_1_0_0.lhsIdx i c 0).val = (i 0).val := by
  unfold DotDims.lhsIdx
  rw [dif_pos (show (0 : Fin S32x128x16.rank) ∈ dot_S32x128x16_S32x128x16_S32x128x128_2_2_1_1_0_0.lhsBatch by decide)]
  rfl
private theorem lhs_qk_1 (i : S32x128x128.Idx) (c : dot_S32x128x16_S32x128x16_S32x128x128_2_2_1_1_0_0.contr.Idx) :
    (dot_S32x128x16_S32x128x16_S32x128x128_2_2_1_1_0_0.lhsIdx i c 1).val = (i 1).val := by
  unfold DotDims.lhsIdx
  rw [dif_neg (show ¬(1 : Fin S32x128x16.rank) ∈ dot_S32x128x16_S32x128x16_S32x128x128_2_2_1_1_0_0.lhsBatch by decide), dif_pos (show (1 : Fin S32x128x16.rank) ∈ dot_S32x128x16_S32x128x16_S32x128x128_2_2_1_1_0_0.lhsNonContracting by decide)]
  rfl
private theorem lhs_qk_2 (i : S32x128x128.Idx) (c : dot_S32x128x16_S32x128x16_S32x128x128_2_2_1_1_0_0.contr.Idx) :
    (dot_S32x128x16_S32x128x16_S32x128x128_2_2_1_1_0_0.lhsIdx i c 2).val = (c ⟨0, by decide⟩).val :=
  dot_S32x128x16_S32x128x16_S32x128x128_2_2_1_1_0_0.lhsIdx_val_of_single rfl i c
private theorem rhs_qk_0 (i : S32x128x128.Idx) (c : dot_S32x128x16_S32x128x16_S32x128x128_2_2_1_1_0_0.contr.Idx) :
    (dot_S32x128x16_S32x128x16_S32x128x128_2_2_1_1_0_0.rhsIdx i c 0).val = (i 0).val := by
  unfold DotDims.rhsIdx
  rw [dif_pos (show (0 : Fin S32x128x16.rank) ∈ dot_S32x128x16_S32x128x16_S32x128x128_2_2_1_1_0_0.rhsBatch by decide)]
  rfl
private theorem rhs_qk_1 (i : S32x128x128.Idx) (c : dot_S32x128x16_S32x128x16_S32x128x128_2_2_1_1_0_0.contr.Idx) :
    (dot_S32x128x16_S32x128x16_S32x128x128_2_2_1_1_0_0.rhsIdx i c 1).val = (i 2).val := by
  unfold DotDims.rhsIdx
  rw [dif_neg (show ¬(1 : Fin S32x128x16.rank) ∈ dot_S32x128x16_S32x128x16_S32x128x128_2_2_1_1_0_0.rhsBatch by decide), dif_pos (show (1 : Fin S32x128x16.rank) ∈ dot_S32x128x16_S32x128x16_S32x128x128_2_2_1_1_0_0.rhsNonContracting by decide)]
  rfl
private theorem rhs_qk_2 (i : S32x128x128.Idx) (c : dot_S32x128x16_S32x128x16_S32x128x128_2_2_1_1_0_0.contr.Idx) :
    (dot_S32x128x16_S32x128x16_S32x128x128_2_2_1_1_0_0.rhsIdx i c 2).val = (c ⟨0, by decide⟩).val :=
  dot_S32x128x16_S32x128x16_S32x128x128_2_2_1_1_0_0.rhsIdx_val_of_single rfl i c

/-- The score product at (n, t, s): the sum over the 16 lanes of the two rows' products. -/
private theorem qk_apply (a b : FVec Ideal S32x128x16 .bf16) (n : Fin 32) (t s : Fin 128) :
    matmul dot_S32x128x16_S32x128x16_S32x128x128_2_2_1_1_0_0 none a b (constant S32x128x128 .f32 0x00000000#32) (ix3 n t s)
      = ∑ dd : Fin 16, a (ix3 n t dd) * b (ix3 n s dd) := by
  simp only [matmul]
  rw [Ideal.matmul_constant_zero_apply, ← Equiv.sum_comp (ValueIdx.contrEquiv1 dot_S32x128x16_S32x128x16_S32x128x128_2_2_1_1_0_0 16 rfl rfl).symm]
  refine Finset.sum_congr rfl fun dd _ => ?_
  have hk := ValueIdx.contrEquiv1_symm_val dot_S32x128x16_S32x128x16_S32x128x128_2_2_1_1_0_0 16 rfl rfl dd
  have el : dot_S32x128x16_S32x128x16_S32x128x128_2_2_1_1_0_0.lhsIdx (ix3 n t s) ((ValueIdx.contrEquiv1 dot_S32x128x16_S32x128x16_S32x128x128_2_2_1_1_0_0 16 rfl rfl).symm dd) = ix3 n t dd := funext fun x => Fin.ext (by
    match x with
    | ⟨0, _⟩ => exact lhs_qk_0 _ _
    | ⟨1, _⟩ => exact lhs_qk_1 _ _
    | ⟨2, _⟩ => exact (lhs_qk_2 _ _).trans hk)
  have er : dot_S32x128x16_S32x128x16_S32x128x128_2_2_1_1_0_0.rhsIdx (ix3 n t s) ((ValueIdx.contrEquiv1 dot_S32x128x16_S32x128x16_S32x128x128_2_2_1_1_0_0 16 rfl rfl).symm dd) = ix3 n s dd := funext fun x => Fin.ext (by
    match x with
    | ⟨0, _⟩ => exact rhs_qk_0 _ _
    | ⟨1, _⟩ => exact rhs_qk_1 _ _
    | ⟨2, _⟩ => exact (rhs_qk_2 _ _).trans hk)
  rw [el, er]

/-! ## The row reductions and the column broadcast -/

/-- The position over (n, t) with s inserted on the reduced axis is (n, t, s). -/
private theorem lift_row (n : Fin 32) (t s : Fin 128) :
    reduces_S32x128x128_S32x128.lift (ix2 n t) s = ix3 n t s :=
  funext fun c => Fin.ext (by
    match c with
    | ⟨0, _⟩ => rfl
    | ⟨1, _⟩ => rfl
    | ⟨2, _⟩ => rfl)

/-- The maximum over the last axis, from -inf, at (n, t): the row maximum of the 128 entries of that row. -/
private theorem max_apply (x : FVec Ideal S32x128x128 .f32) (n : Fin 32) (t : Fin 128) :
    multiReduction (F := Ideal) .maximumf [2] S32x128 x 0xFF800000#32 reduces_S32x128x128_S32x128 (.inl rfl) rfl (ix2 n t)
      = rowMax (fun s => x (ix3 n t s)) := by
  refine (Ideal.multiReduction_maximumf_single x 0xFF800000#32 reduces_S32x128x128_S32x128 (.inl rfl) rfl (ix2 n t)).trans ?_
  show (Finset.univ : Finset (Fin 128)).fold max negInf (fun s => x (reduces_S32x128x128_S32x128.lift (ix2 n t) s)) = _
  unfold rowMax
  exact congrArg (fun f => (Finset.univ : Finset (Fin 128)).fold max negInf f) (funext fun s => congrArg x (lift_row n t s))

/-- The sum over the last axis at (n, t): the sum of the 128 entries of that row. -/
private theorem sum_apply (x : FVec Ideal S32x128x128 .f32) (n : Fin 32) (t : Fin 128) :
    multiReduction (F := Ideal) .add [2] S32x128 x 0x00000000#32 reduces_S32x128x128_S32x128 (.inl rfl) rfl (ix2 n t)
      = ∑ s : Fin 128, x (ix3 n t s) := by
  refine (Ideal.multiReduction_add_single x 0x00000000#32 reduces_S32x128x128_S32x128 (.inl rfl) rfl (ix2 n t)).trans ?_
  show ∑ s : Fin 128, x (reduces_S32x128x128_S32x128.lift (ix2 n t) s) = _
  exact Finset.sum_congr rfl fun s _ => congrArg x (lift_row n t s)

/-- A [32, 128] array given a trailing unit axis and spread along it over 128 positions reads, at (n, t, s), its
    entry (n, t). -/
private theorem col_apply (m : FVec Ideal S32x128 .f32) (n : Fin 32) (t s : Fin 128) :
    broadcastTo S32x128x128 (shapeCast S32x128x1 m shapeCasts_S32x128_S32x128x1) broadcasts_S32x128x1_S32x128x128 (ix3 n t s)
      = m (ix2 n t) := by
  refine (broadcastTo_apply _ broadcasts_S32x128x1_S32x128x128 (ix3 n t s) (ix3 n t (0 : Fin 1)) (fun a => ?_)).trans ?_
  · match a with
    | ⟨0, _⟩ => rfl
    | ⟨1, _⟩ => rfl
    | ⟨2, _⟩ => rfl
  · refine shapeCast_apply m shapeCasts_S32x128_S32x128x1 (ix3 n t (0 : Fin 1)) (ix2 n t) ?_
    rw [Shape.rowMajor_val_two, Shape.rowMajor_val_three]
    show n.val * 128 + t.val = (n.val * 128 + t.val) * 1 + 0
    omega

/-! ## The mixing product: contraction over the 128 positions, one product per node -/

private theorem lhs_av_0 (i : S32x128x16.Idx) (c : dot_S32x128x128_S32x128x16_S32x128x16_2_1_1_2_0_0.contr.Idx) :
    (dot_S32x128x128_S32x128x16_S32x128x16_2_1_1_2_0_0.lhsIdx i c 0).val = (i 0).val := by
  unfold DotDims.lhsIdx
  rw [dif_pos (show (0 : Fin S32x128x128.rank) ∈ dot_S32x128x128_S32x128x16_S32x128x16_2_1_1_2_0_0.lhsBatch by decide)]
  rfl
private theorem lhs_av_1 (i : S32x128x16.Idx) (c : dot_S32x128x128_S32x128x16_S32x128x16_2_1_1_2_0_0.contr.Idx) :
    (dot_S32x128x128_S32x128x16_S32x128x16_2_1_1_2_0_0.lhsIdx i c 1).val = (i 1).val := by
  unfold DotDims.lhsIdx
  rw [dif_neg (show ¬(1 : Fin S32x128x128.rank) ∈ dot_S32x128x128_S32x128x16_S32x128x16_2_1_1_2_0_0.lhsBatch by decide), dif_pos (show (1 : Fin S32x128x128.rank) ∈ dot_S32x128x128_S32x128x16_S32x128x16_2_1_1_2_0_0.lhsNonContracting by decide)]
  rfl
private theorem lhs_av_2 (i : S32x128x16.Idx) (c : dot_S32x128x128_S32x128x16_S32x128x16_2_1_1_2_0_0.contr.Idx) :
    (dot_S32x128x128_S32x128x16_S32x128x16_2_1_1_2_0_0.lhsIdx i c 2).val = (c ⟨0, by decide⟩).val :=
  dot_S32x128x128_S32x128x16_S32x128x16_2_1_1_2_0_0.lhsIdx_val_of_single rfl i c
private theorem rhs_av_0 (i : S32x128x16.Idx) (c : dot_S32x128x128_S32x128x16_S32x128x16_2_1_1_2_0_0.contr.Idx) :
    (dot_S32x128x128_S32x128x16_S32x128x16_2_1_1_2_0_0.rhsIdx i c 0).val = (i 0).val := by
  unfold DotDims.rhsIdx
  rw [dif_pos (show (0 : Fin S32x128x16.rank) ∈ dot_S32x128x128_S32x128x16_S32x128x16_2_1_1_2_0_0.rhsBatch by decide)]
  rfl
private theorem rhs_av_1 (i : S32x128x16.Idx) (c : dot_S32x128x128_S32x128x16_S32x128x16_2_1_1_2_0_0.contr.Idx) :
    (dot_S32x128x128_S32x128x16_S32x128x16_2_1_1_2_0_0.rhsIdx i c 1).val = (c ⟨0, by decide⟩).val :=
  dot_S32x128x128_S32x128x16_S32x128x16_2_1_1_2_0_0.rhsIdx_val_of_single rfl i c
private theorem rhs_av_2 (i : S32x128x16.Idx) (c : dot_S32x128x128_S32x128x16_S32x128x16_2_1_1_2_0_0.contr.Idx) :
    (dot_S32x128x128_S32x128x16_S32x128x16_2_1_1_2_0_0.rhsIdx i c 2).val = (i 2).val := by
  unfold DotDims.rhsIdx
  rw [dif_neg (show ¬(2 : Fin S32x128x16.rank) ∈ dot_S32x128x128_S32x128x16_S32x128x16_2_1_1_2_0_0.rhsBatch by decide), dif_pos (show (2 : Fin S32x128x16.rank) ∈ dot_S32x128x128_S32x128x16_S32x128x16_2_1_1_2_0_0.rhsNonContracting by decide)]
  rfl

/-- The mixing product at (n, t, dd): the sum over the 128 positions of weight times value. -/
private theorem av_apply (a : FVec Ideal S32x128x128 .bf16) (b : FVec Ideal S32x128x16 .bf16) (n : Fin 32) (t : Fin 128) (dd : Fin 16) :
    matmul dot_S32x128x128_S32x128x16_S32x128x16_2_1_1_2_0_0 none a b (constant S32x128x16 .f32 0x00000000#32) (ix3 n t dd)
      = ∑ s : Fin 128, a (ix3 n t s) * b (ix3 n s dd) := by
  simp only [matmul]
  rw [Ideal.matmul_constant_zero_apply, ← Equiv.sum_comp (ValueIdx.contrEquiv1 dot_S32x128x128_S32x128x16_S32x128x16_2_1_1_2_0_0 128 rfl rfl).symm]
  refine Finset.sum_congr rfl fun s _ => ?_
  have hk := ValueIdx.contrEquiv1_symm_val dot_S32x128x128_S32x128x16_S32x128x16_2_1_1_2_0_0 128 rfl rfl s
  have el : dot_S32x128x128_S32x128x16_S32x128x16_2_1_1_2_0_0.lhsIdx (ix3 n t dd) ((ValueIdx.contrEquiv1 dot_S32x128x128_S32x128x16_S32x128x16_2_1_1_2_0_0 128 rfl rfl).symm s) = ix3 n t s := funext fun x => Fin.ext (by
    match x with
    | ⟨0, _⟩ => exact lhs_av_0 _ _
    | ⟨1, _⟩ => exact lhs_av_1 _ _
    | ⟨2, _⟩ => exact (lhs_av_2 _ _).trans hk)
  have er : dot_S32x128x128_S32x128x16_S32x128x16_2_1_1_2_0_0.rhsIdx (ix3 n t dd) ((ValueIdx.contrEquiv1 dot_S32x128x128_S32x128x16_S32x128x16_2_1_1_2_0_0 128 rfl rfl).symm s) = ix3 n s dd := funext fun x => Fin.ext (by
    match x with
    | ⟨0, _⟩ => exact rhs_av_0 _ _
    | ⟨1, _⟩ => exact (rhs_av_1 _ _).trans hk
    | ⟨2, _⟩ => exact rhs_av_2 _ _)
  rw [el, er]

/-! ## The head: scores, softmax weights, mix -/

/-- The masked scores of head h at (n, t, s). -/
private theorem score_apply (h : Fin 4) (hs : S32x128x64.Slices ![0, 0, 16 * h.val] S32x128x16) (q k : FVec Ideal S32x128x64 .bf16)
    (mk : IVec S32x128x128 1) (n : Fin 32) (t s : Fin 128) :
    select mk (broadcast S32x128x128 (Scalar.ofBits .f32 0xCE6E6B28#32))
        (matmul dot_S32x128x16_S32x128x16_S32x128x128_2_2_1_1_0_0 none
          (extractStridedSlice S32x128x16 ![0, 0, 16 * h.val] q hs) (extractStridedSlice S32x128x16 ![0, 0, 16 * h.val] k hs)
          (constant S32x128x128 .f32 0x00000000#32)) (ix3 n t s)
      = scoreOf id (fun d => q (ix3 n t d)) (fun d => k (ix3 n s d)) (mk (ix3 n t s)) h := by
  refine (select_apply _ _ _ _).trans ?_
  unfold scoreOf
  refine congrArg (Scalar.select (mk (ix3 n t s)) negBig) ?_
  refine (qk_apply _ _ n t s).trans ?_
  exact Finset.sum_congr rfl fun dd _ => congrArg₂ (· * ·) (slice_apply h hs q n t dd) (slice_apply h hs k n s dd)

/-- The exponentials of a score array less its row maxima. -/
private abbrev expRows (x : FVec Ideal S32x128x128 .f32) : FVec Ideal S32x128x128 .f32 :=
  exp (subf x (broadcastTo S32x128x128 (shapeCast S32x128x1
    (multiReduction .maximumf [2] S32x128 x 0xFF800000#32 reduces_S32x128x128_S32x128 (.inl rfl) rfl)
    shapeCasts_S32x128_S32x128x1) broadcasts_S32x128x1_S32x128x128))

/-- The softmax weights of a score array: each exponential over its row's sum. -/
private abbrev softRows (x : FVec Ideal S32x128x128 .f32) : FVec Ideal S32x128x128 .bf16 :=
  truncf .bf16 (divf (expRows x) (broadcastTo S32x128x128 (shapeCast S32x128x1
    (multiReduction .add [2] S32x128 (expRows x) 0x00000000#32 reduces_S32x128x128_S32x128 (.inl rfl) rfl)
    shapeCasts_S32x128_S32x128x1) broadcasts_S32x128x1_S32x128x128)) bitsLt_bf16_f32

/-- The exponential at (n, t, s): of the entry less the maximum of its row. -/
private theorem ex_apply (x : FVec Ideal S32x128x128 .f32) (n : Fin 32) (t s : Fin 128) :
    expRows x (ix3 n t s) = Ideal.exp (x (ix3 n t s) - rowMax (fun s' => x (ix3 n t s'))) := by
  show Ideal.exp (x (ix3 n t s) - broadcastTo S32x128x128 (shapeCast S32x128x1
    (multiReduction (F := Ideal) .maximumf [2] S32x128 x 0xFF800000#32 reduces_S32x128x128_S32x128 (.inl rfl) rfl)
    shapeCasts_S32x128_S32x128x1) broadcasts_S32x128x1_S32x128x128 (ix3 n t s)) = _
  refine congrArg (fun z => Ideal.exp (x (ix3 n t s) - z)) ?_
  exact (col_apply _ n t s).trans (max_apply x n t)

/-- The softmax weight at (n, t, s): the weight of position s in row (n, t) of the scores. -/
private theorem aw_apply (x : FVec Ideal S32x128x128 .f32) (n : Fin 32) (t s : Fin 128) :
    softRows x (ix3 n t s) = attn (fun s' => x (ix3 n t s')) s := by
  show Ideal.div (expRows x (ix3 n t s)) (broadcastTo S32x128x128 (shapeCast S32x128x1
    (multiReduction (F := Ideal) .add [2] S32x128 (expRows x) 0x00000000#32 reduces_S32x128x128_S32x128 (.inl rfl) rfl)
    shapeCasts_S32x128_S32x128x1) broadcasts_S32x128x1_S32x128x128 (ix3 n t s)) = _
  unfold attn
  refine congrArg₂ Ideal.div (ex_apply x n t s) ?_
  refine (col_apply _ n t s).trans ((sum_apply (expRows x) n t).trans ?_)
  exact Finset.sum_congr rfl fun s' _ => ex_apply x n t s'

/-- The head at node n, position t, lane dd: the softmax mix of the value rows' lane 16 h + dd. -/
theorem headVec_apply (h : Fin 4) (off : Fin 3 → Nat) (hoff : off = ![0, 0, 16 * h.val]) (hs : S32x128x64.Slices off S32x128x16)
    (q k v : FVec Ideal S32x128x64 .bf16) (mk : IVec S32x128x128 1) (n : Fin 32) (t : Fin 128) (dd : Fin 16) :
    headVec off hs q k v mk (ix3 n t dd)
      = mix (fun s => scoreOf id (fun d => q (ix3 n t d)) (fun d => k (ix3 n s d)) (mk (ix3 n t s)) h)
          (fun s => v (ix3 n s (hd h dd))) := by
  subst hoff
  refine Eq.trans ?_ (congrArg (fun r => mix r (fun s => v (ix3 n s (hd h dd))))
    (funext fun s => score_apply h hs q k mk n t s))
  unfold headVec mix
  refine (truncf_apply (φ := .f32) (ψ := .bf16) _ bitsLt_bf16_f32 (ix3 n t dd)).trans ?_
  refine (av_apply _ _ n t dd).trans ?_
  refine Finset.sum_congr rfl fun s _ => ?_
  exact congrArg₂ (· * ·) (aw_apply _ n t s) (slice_apply h hs v n s dd)

end Cert.Attention.Kern

end
-- ==== Proof.KCtx.lean ====
/-
  The merged heads of a block read at an index.

  The block's four heads are computed one after the other, each on its own 16 feature lanes, and laid
  side by side again along the feature axis; the rows (node, position) are then flattened.  Feature lane d
  of row (n, t) is lane d mod 16 of head d / 16: the attention context of Spec.lean.
-/
import proofs.«400098_j70274254897372_3_alg».proof.Proof.Gen.KernelIdeal.Skeleton
import proofs.«400098_j70274254897372_3_alg».proof.Proof.Spec
import proofs.«400098_j70274254897372_3_alg».proof.Proof.KHead
import Idealize.ShloMosaic.Lib.Pipeline.Value
import Idealize.ShloMosaic.Lib.ValueIdx
import Idealize.ShloMosaic.Lib.ValueLayout
import Idealize.ShloMosaic.PureOps.Ideal.Laws

noncomputable section

namespace Cert.Attention.Kern

open Idealize.ShloMosaic Idealize.ShloMosaic.ValueIdx Cert.KernelIdeal Cert.KernelIdeal.Gen Cert.Attention

/-- Flattening the rows: the cast of [32, 128, 64] to [4096, 64] reads, at row n * 128 + t, the operand at (n, t). -/
private theorem flat_apply {α : Type} (x : S32x128x64.Idx → α) (n : Fin 32) (t : Fin 128) (d : Fin 64) :
    shapeCast S4096x64 x shapeCasts_S32x128x64_S4096x64 (ix2 (row n t) d) = x (ix3 n t d) :=
  shapeCast_apply x _ _ _ (by
    rw [Shape.rowMajor_val_three, Shape.rowMajor_val_two]
    rfl)

/-- Four pieces of 16 lanes laid side by side: lane 16 h + dd is lane dd of piece h. -/
private theorem cat4_apply {α : Type} (x : Fin 4 → S32x128x16.Idx → α) (n : Fin 32) (t : Fin 128) (h : Fin 4) (dd : Fin 16) :
    concatenate S32x128x64 2 [⟨S32x128x16, x 0⟩, ⟨S32x128x16, x 1⟩, ⟨S32x128x16, x 2⟩, ⟨S32x128x16, x 3⟩]
      concatenates_S32x128x16_S32x128x16_S32x128x16_S32x128x16_S32x128x64_d2 (ix3 n t (hd h dd)) = x h (ix3 n t dd) := by
  refine concatenate_ofFn_apply (t := S32x128x64) (s₁ := S32x128x16) (2 : Fin 3) x _ rfl 16 rfl (ix3 n t (hd h dd)) h ?_ (ix3 n t dd) ?_ ?_
  · show (h.val * 16 + dd.val) / 16 = h.val
    omega
  · show dd.val = (h.val * 16 + dd.val) % 16
    omega
  · intro b hb
    match b, hb with
    | ⟨0, _⟩, _ => rfl
    | ⟨1, _⟩, _ => rfl
    | ⟨2, _⟩, hb => exact absurd rfl hb

/-- The four slicing facts as one family: head h's slice starts at lane 16 h. -/
private theorem hsl (h : Fin 4) : S32x128x64.Slices ![0, 0, 16 * h.val] S32x128x16 :=
  match h with
  | ⟨0, _⟩ => slices_S32x128x64_o0_0_0_S32x128x16
  | ⟨1, _⟩ => slices_S32x128x64_o0_0_16_S32x128x16
  | ⟨2, _⟩ => slices_S32x128x64_o0_0_32_S32x128x16
  | ⟨3, _⟩ => slices_S32x128x64_o0_0_48_S32x128x16

/-- Head h of the block, computed whole on its own 16 lanes. -/
private def heads (q k v : FVec Ideal S32x128x64 .bf16) (mk : IVec S32x128x128 1) (h : Fin 4) : FVec Ideal S32x128x16 .bf16 :=
  headVec ![0, 0, 16 * h.val] (hsl h) q k v mk

/-- The block's merged heads are the four heads, each computed whole, laid side by side and flattened. -/
private theorem pay10_eq_heads (q k : FVec Ideal S32x128x64 .bf16) (v37 : FVec Ideal S4096x64 .bf16) (x8 : Vec Ideal S64x64 .f32)
    (x9 : Vec Ideal S1x64 .f32) (x3 : Vec Ideal S1x32x128x128 .i32) :
    k0_pay10 (F := Ideal) q k (k0_pay5 v37 x8 x9) (k0_pay6 x3) (k0_pay7 q k v37 x8 x9 x3) (k0_pay8 v37 x8 x9) (k0_pay9 q k x3)
      = shapeCast S4096x64
          (concatenate S32x128x64 2
            [⟨S32x128x16, heads q k (k0_pay5 v37 x8 x9) (k0_pay6 x3) 0⟩,
             ⟨S32x128x16, heads q k (k0_pay5 v37 x8 x9) (k0_pay6 x3) 1⟩,
             ⟨S32x128x16, heads q k (k0_pay5 v37 x8 x9) (k0_pay6 x3) 2⟩,
             ⟨S32x128x16, heads q k (k0_pay5 v37 x8 x9) (k0_pay6 x3) 3⟩]
            concatenates_S32x128x16_S32x128x16_S32x128x16_S32x128x16_S32x128x64_d2)
          shapeCasts_S32x128x64_S4096x64 := by
  unfold k0_pay10 k0_pay7 k0_pay8 k0_pay9 heads headVec
  rfl

/-- The merged heads at row (n, t), feature lane d, from the block's projected queries q, keys k, and the
    value block and mask block as loaded. -/
theorem pay10_apply (q k : FVec Ideal S32x128x64 .bf16) (x2 : Vec Ideal S1x128x2048 .f32) (x8 : Vec Ideal S64x64 .f32)
    (x9 : Vec Ideal S1x64 .f32) (x3 : Vec Ideal S1x32x128x128 .i32) (n : Fin 32) (t : Fin 128) (d : Fin 64) :
    k0_pay10 (F := Ideal) q k (k0_pay5 (k0_pay4 x2) x8 x9) (k0_pay6 x3) (k0_pay7 q k (k0_pay4 x2) x8 x9 x3)
        (k0_pay8 (k0_pay4 x2) x8 x9) (k0_pay9 q k x3) (ix2 (row n t) d)
      = ctxOf id (fun d' => q (ix3 n t d')) (fun s d' => k (ix3 n s d'))
          (fun s d' => k0_pay5 (F := Ideal) (k0_pay4 x2) x8 x9 (ix3 n s d'))
          (fun s => k0_pay6 (F := Ideal) x3 (ix3 n t s)) d := by
  -- lane d is lane d mod 16 of head d / 16
  obtain ⟨h, dd, rfl⟩ : ∃ (h : Fin 4) (dd : Fin 16), d = hd h dd :=
    ⟨headOf d, ⟨d.val % 16, Nat.mod_lt _ (by decide)⟩, Fin.ext (by
      show d.val = d.val / 16 * 16 + d.val % 16
      omega)⟩
  have hh : headOf (hd h dd) = h := Fin.ext (by
    show (h.val * 16 + dd.val) / 16 = h.val
    omega)
  rw [pay10_eq_heads]
  -- the flattening, then the side-by-side layout, then the head itself
  refine (flat_apply _ n t (hd h dd)).trans ?_
  refine (cat4_apply (heads q k (k0_pay5 (k0_pay4 x2) x8 x9) (k0_pay6 x3)) n t h dd).trans ?_
  unfold ctxOf heads
  rw [hh]
  exact headVec_apply h _ rfl (hsl h) q k _ _ n t dd

end Cert.Attention.Kern

end
-- ==== Proof.KPay.lean ====
/-
  The kernel's whole body at an index of the output block.

  The stored value at position t, node n, feature e of the block is the output projection of the merged
  heads, each head the softmax mix over the key positions of the projected values, with scores from the
  projected (and quartered) queries and the projected keys: the row function of Spec.lean read off the
  loaded blocks.
-/
import proofs.«400098_j70274254897372_3_alg».proof.Proof.Gen.KernelIdeal.Skeleton
import proofs.«400098_j70274254897372_3_alg».proof.Proof.Spec
import proofs.«400098_j70274254897372_3_alg».proof.Proof.KProj
import proofs.«400098_j70274254897372_3_alg».proof.Proof.KCtx

noncomputable section

namespace Cert.Attention.Kern

open Idealize.ShloMosaic Idealize.ShloMosaic.ValueIdx Cert.KernelIdeal Cert.KernelIdeal.Gen Cert.Attention

/-- The body's one store, read at position t, node n, feature e. -/
theorem pay_apply (x0 x1 x2 : Vec Ideal S1x128x2048 .f32) (x3 : Vec Ideal S1x32x128x128 .i32) (x4 : Vec Ideal S64x64 .f32)
    (x5 : Vec Ideal S1x64 .f32) (x6 : Vec Ideal S64x64 .f32) (x7 : Vec Ideal S1x64 .f32) (x8 : Vec Ideal S64x64 .f32)
    (x9 : Vec Ideal S1x64 .f32) (x10 : Vec Ideal S64x64 .f32) (x11 : Vec Ideal S1x64 .f32)
    (t : Fin 128) (n : Fin 32) (e : Fin 64) :
    k0_pay1 (F := Ideal) (k0_pay10 (k0_pay2 x0 x4 x5) (k0_pay3 x1 x6 x7) (k0_pay5 (k0_pay4 x2) x8 x9) (k0_pay6 x3)
        (k0_pay7 (k0_pay2 x0 x4 x5) (k0_pay3 x1 x6 x7) (k0_pay4 x2) x8 x9 x3) (k0_pay8 (k0_pay4 x2) x8 x9)
        (k0_pay9 (k0_pay2 x0 x4 x5) (k0_pay3 x1 x6 x7) x3)) x10 x11 (ix3 0 t (lane n e))
      = blkOut x0 x1 x2 x3 x4 x5 x6 x7 x8 x9 x10 x11 t n e := by
  rw [pay1_apply]
  unfold blkOut outOf
  refine congrArg (· + x11 (ix2 0 e)) ?_
  unfold dot64
  refine Finset.sum_congr rfl fun d _ => ?_
  dsimp only
  rw [pay10_apply]
  simp only [pay2_apply, pay3_apply, pay54_apply, pay6_apply]

end Cert.Attention.Kern

end
-- ==== Proof.Law.lean ====
/-
  Where the factor 1/4 sits does not matter on real rows.

  The kernel multiplies the projected query row by 1/4 before the dot product with a key row; the
  reference divides the dot product by 4.  On extended reals a factor moves across a sum only where no
  infinities of both signs can meet, so the rows are taken real: then both sides are the real number
  (sum of q k) / 4.  Linear layers of real inputs are real, which is where the rows come from.
-/
import proofs.«400098_j70274254897372_3_alg».proof.Proof.Spec

noncomputable section

namespace Cert.Attention

open Idealize.ShloMosaic Idealize.ShloMosaic.ValueIdx

/-- The f32 word 0x3E800000 is the real 1/4. -/
theorem quarter_eq : quarter = ((1 / 4 : ℝ) : EReal) := by
  unfold quarter
  simp [Ideal.ofBits, Ideal.ieee, -EReal.coe_mul]; norm_num

/-- The f32 word 0x40800000 is the real 4. -/
theorem four_eq : four = ((4 : ℝ) : EReal) := by
  unfold four
  simp [Ideal.ofBits, Ideal.ieee, -EReal.coe_mul]; norm_num

/-- A finite sum of reals, embedded, is the sum of the embedded reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- A dot product of real rows is real. -/
theorem isReal_dot64 (a b : Fin 64 → EReal) (ha : ∀ d, IsReal (a d)) (hb : ∀ d, IsReal (b d)) : IsReal (dot64 a b) :=
  isReal_sum _ _ fun d => (ha d).mul (hb d)

/-- The linear layer of real arrays is real. -/
theorem isReal_lin (x : Act.Idx → EReal) (w : Wt.Idx → EReal) (b : Bias.Idx → EReal) (hx : ∀ i, IsReal (x i))
    (hw : ∀ i, IsReal (w i)) (hb : ∀ i, IsReal (b i)) (bi : Fin 8) (t : Fin 128) (n : Fin 64) (e : Fin 64) :
    IsReal (lin x w b bi t n e) :=
  (isReal_dot64 _ _ (fun _ => hx _) (fun _ => hw _)).add (hb _)

/-- On real rows: the dot product of the quartered query row with a key row is the dot product over 4. -/
theorem dot_quarter (Q K : Fin 64 → EReal) (hQ : ∀ d, IsReal (Q d)) (hK : ∀ d, IsReal (K d)) (h : Fin 4) :
    (∑ dd : Fin 16, (Q (hd h dd) * quarter) * K (hd h dd)) = Ideal.div (∑ dd : Fin 16, Q (hd h dd) * K (hd h dd)) four := by
  choose q hq using hQ
  choose k hk using hK
  rw [four_eq, Ideal.div_coe (by norm_num : (4 : ℝ) ≠ 0), quarter_eq]
  have e1 : ∀ dd : Fin 16, (Q (hd h dd) * ((1 / 4 : ℝ) : EReal)) * K (hd h dd) = ((q (hd h dd) * (1 / 4) * k (hd h dd) : ℝ) : EReal) := by
    intro dd; rw [hq, hk, ← EReal.coe_mul, ← EReal.coe_mul]
  have e2 : ∀ dd : Fin 16, Q (hd h dd) * K (hd h dd) = ((q (hd h dd) * k (hd h dd) : ℝ) : EReal) := by
    intro dd; rw [hq, hk, ← EReal.coe_mul]
  rw [Finset.sum_congr rfl fun dd _ => e1 dd, Finset.sum_congr rfl fun dd _ => e2 dd, ← coe_sum, ← coe_sum, ← EReal.coe_mul]
  congr 1
  rw [Finset.sum_mul]
  exact Finset.sum_congr rfl fun dd _ => by ring

/-- So the kernel's row function and the reference's agree on real query and key rows. -/
theorem outOf_quarter (Q : Fin 64 → EReal) (K V : Fin 128 → Fin 64 → EReal) (mb : Fin 128 → BitVec 1)
    (wp : Fin 64 → Fin 64 → EReal) (bp : Fin 64 → EReal) (e : Fin 64) (hQ : ∀ d, IsReal (Q d))
    (hK : ∀ s d, IsReal (K s d)) :
    outOf id (fun d => Q d * quarter) K V mb wp bp e = outOf (fun z => Ideal.div z four) Q K V mb wp bp e := by
  unfold outOf ctxOf
  have hs : ∀ (s : Fin 128) (h : Fin 4), scoreOf id (fun d => Q d * quarter) (K s) (mb s) h
      = scoreOf (fun z => Ideal.div z four) Q (K s) (mb s) h := by
    intro s h
    unfold scoreOf
    exact congrArg (Scalar.select (mb s) negBig) (dot_quarter Q (K s) hQ (hK s) h)
  simp only [hs]

end Cert.Attention

end
-- ==== Proof.KBlock.lean ====
/-
  From the kernel's blocks to the whole result array.

  The grid has 8 x 2 points: point (b, ni) works on batch entry b and on the nodes 32 ni .. 32 ni + 31.
  Its activation blocks are rows b of the flattened arrays [8, 128, 64 x 64], lanes 2048 ni .. 2048 ni + 2047;
  its mask block is rows (b, 32 ni ..) of the mask; the weights and biases are whole.  The value the body
  stores at position t and lane l of the block is the row function of Spec.lean read off these blocks.
  The sixteen output blocks tile the flattened result, so the result holds that value everywhere; the last
  reshape splits the lanes into node and feature again.  Reading the blocks back as the argument arrays
  (the reshapes before the region keep the row-major position) turns the block's linear layers into the
  linear layers of the arrays, and on real arguments moving the factor 1/4 gives the reference's row function.
-/
import proofs.«400098_j70274254897372_3_alg».proof.Proof.Gen.KernelIdeal.Frame
import proofs.«400098_j70274254897372_3_alg».proof.Proof.Spec
import proofs.«400098_j70274254897372_3_alg».proof.Proof.KPay
import proofs.«400098_j70274254897372_3_alg».proof.Proof.Law
import Idealize.ShloMosaic.Lib.Pipeline.Value
import Idealize.ShloMosaic.Lib.ValueIdx
import Idealize.ShloMosaic.Lib.StableHlo.Run

set_option maxRecDepth 16384

noncomputable section

namespace Cert.Attention.Kern

open Idealize.ShloMosaic Idealize.ShloMosaic.ValueIdx Idealize.ShloMosaic.TcCoe Idealize.ShloMosaic.Tactic Idealize.SL.Sem
open Cert.KernelIdeal Cert.KernelIdeal.Gen Cert.Attention
open Idealize.ShloMosaic.Pipeline (Dat Cfg Window)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The node inside the block that owns lane l of a block row. -/
def nodeOf (l : Fin 2048) : Fin 32 := ⟨l.val / 64, by omega⟩
/-- The feature inside its node of lane l. -/
def featOf (l : Fin 2048) : Fin 64 := ⟨l.val % 64, Nat.mod_lt _ (by norm_num)⟩

theorem lane_nodeOf_featOf (l : Fin 2048) : lane (nodeOf l) (featOf l) = l :=
  Fin.ext (by show l.val / 64 * 64 + l.val % 64 = l.val; omega)

theorem pay_at (x0 x1 x2 : Vec Ideal S1x128x2048 .f32) (x3 : Vec Ideal S1x32x128x128 .i32) (x4 : Vec Ideal S64x64 .f32)
    (x5 : Vec Ideal S1x64 .f32) (x6 : Vec Ideal S64x64 .f32) (x7 : Vec Ideal S1x64 .f32) (x8 : Vec Ideal S64x64 .f32)
    (x9 : Vec Ideal S1x64 .f32) (x10 : Vec Ideal S64x64 .f32) (x11 : Vec Ideal S1x64 .f32) (y : S1x128x2048.Idx) :
    k0_pay1 (F := Ideal) (k0_pay10 (k0_pay2 x0 x4 x5) (k0_pay3 x1 x6 x7) (k0_pay5 (k0_pay4 x2) x8 x9) (k0_pay6 x3)
        (k0_pay7 (k0_pay2 x0 x4 x5) (k0_pay3 x1 x6 x7) (k0_pay4 x2) x8 x9 x3) (k0_pay8 (k0_pay4 x2) x8 x9)
        (k0_pay9 (k0_pay2 x0 x4 x5) (k0_pay3 x1 x6 x7) x3)) x10 x11 y
      = blkOut x0 x1 x2 x3 x4 x5 x6 x7 x8 x9 x10 x11 (y 1) (nodeOf (y 2)) (featOf (y 2)) := by
  have hy : ix3 (0 : Fin 1) (y 1) (lane (nodeOf (y 2)) (featOf (y 2))) = y := by
    funext a
    match a with
    | ⟨0, _⟩ => exact Subsingleton.elim (α := Fin 1) _ _
    | ⟨1, _⟩ => rfl
    | ⟨2, _⟩ => exact lane_nodeOf_featOf (y 2)
  have h := pay_apply x0 x1 x2 x3 x4 x5 x6 x7 x8 x9 x10 x11 (y 1) (nodeOf (y 2)) (featOf (y 2))
  refine Eq.trans ?_ h
  exact congrArg _ hy.symm

/-- Block (b, ni) of a flat activation array [8, 128, 4096]: 2048 lanes from lane 2048 ni on. -/
def blockOf (A : S8x128x4096.Idx → EReal) (b : Fin 8) (ni : Fin 2) : S1x128x2048.Idx → EReal :=
  fun j => A (ix3 b (j 1) ⟨ni.val * 2048 + (j 2).val, by have h : (j 2).val < 2048 := (j 2).isLt; omega⟩)

/-- Block (b, ni) of the mask [8, 64, 128, 128]: 32 nodes from node 32 ni on. -/
def mblockOf (A : S8x64x128x128.Idx → BitVec 32) (b : Fin 8) (ni : Fin 2) : S1x32x128x128.Idx → BitVec 32 :=
  fun j => A (ix4 b ⟨ni.val * 32 + (j 1).val, by have h : (j 1).val < 32 := (j 1).isLt; omega⟩ (j 2) (j 3))

theorem idx_facts : ∀ t : Fin cfg0.N,
    (win0_0.index t (0 : Fin 3) = (grid0.coords t 0).val ∧ win0_0.index t (1 : Fin 3) = 0 ∧ win0_0.index t (2 : Fin 3) = (grid0.coords t 1).val)
    ∧ (win0_1.index t (0 : Fin 3) = (grid0.coords t 0).val ∧ win0_1.index t (1 : Fin 3) = 0 ∧ win0_1.index t (2 : Fin 3) = (grid0.coords t 1).val)
    ∧ (win0_2.index t (0 : Fin 3) = (grid0.coords t 0).val ∧ win0_2.index t (1 : Fin 3) = 0 ∧ win0_2.index t (2 : Fin 3) = (grid0.coords t 1).val)
    ∧ (win0_12.index t (0 : Fin 3) = (grid0.coords t 0).val ∧ win0_12.index t (1 : Fin 3) = 0 ∧ win0_12.index t (2 : Fin 3) = (grid0.coords t 1).val)
    ∧ (win0_3.index t (0 : Fin 4) = (grid0.coords t 0).val ∧ win0_3.index t (1 : Fin 4) = (grid0.coords t 1).val ∧ win0_3.index t (2 : Fin 4) = 0 ∧ win0_3.index t (3 : Fin 4) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0)
    ∧ (win0_10.index t (0 : Fin 2) = 0 ∧ win0_10.index t (1 : Fin 2) = 0) ∧ (win0_11.index t (0 : Fin 2) = 0 ∧ win0_11.index t (1 : Fin 2) = 0) :=
  (by decide +kernel : ∀ t : Fin grid0.N, _)

/-- An activation window's block at a grid point is the block of its array at the point's coordinates. -/
theorem iblk0 (c : Dev nD) (t : Fin cfg0.N) :
    iblk m c 0 t = blockOf (V m c main_v0) (grid0.coords t 0) (grid0.coords t 1) := by
  obtain ⟨⟨e0, e1, e2⟩, -⟩ := idx_facts t
  funext y
  show V m c main_v0 (((cfg0.win 0).blk t).view.emb y) = V m c main_v0 _
  refine congrArg (V m c main_v0) (funext fun a => Fin.ext ?_)
  match a with
  | ⟨0, _⟩ => show win0_0.index t (0 : Fin 3) * 1 + 1 * (y 0).val = (grid0.coords t 0).val; have hj : (y 0).val < 1 := (y 0).isLt; omega
  | ⟨1, _⟩ => show win0_0.index t (1 : Fin 3) * 128 + 1 * (y 1).val = (y 1).val; omega
  | ⟨2, _⟩ => show win0_0.index t (2 : Fin 3) * 2048 + 1 * (y 2).val = (grid0.coords t 1).val * 2048 + (y 2).val; omega

theorem iblk1 (c : Dev nD) (t : Fin cfg0.N) :
    iblk m c 1 t = blockOf (V m c main_v1) (grid0.coords t 0) (grid0.coords t 1) := by
  obtain ⟨-, ⟨e0, e1, e2⟩, -⟩ := idx_facts t
  funext y
  show V m c main_v1 (((cfg0.win 1).blk t).view.emb y) = V m c main_v1 _
  refine congrArg (V m c main_v1) (funext fun a => Fin.ext ?_)
  match a with
  | ⟨0, _⟩ => show win0_1.index t (0 : Fin 3) * 1 + 1 * (y 0).val = (grid0.coords t 0).val; have hj : (y 0).val < 1 := (y 0).isLt; omega
  | ⟨1, _⟩ => show win0_1.index t (1 : Fin 3) * 128 + 1 * (y 1).val = (y 1).val; omega
  | ⟨2, _⟩ => show win0_1.index t (2 : Fin 3) * 2048 + 1 * (y 2).val = (grid0.coords t 1).val * 2048 + (y 2).val; omega

theorem iblk2 (c : Dev nD) (t : Fin cfg0.N) :
    iblk m c 2 t = blockOf (V m c main_v2) (grid0.coords t 0) (grid0.coords t 1) := by
  obtain ⟨-, -, ⟨e0, e1, e2⟩, -⟩ := idx_facts t
  funext y
  show V m c main_v2 (((cfg0.win 2).blk t).view.emb y) = V m c main_v2 _
  refine congrArg (V m c main_v2) (funext fun a => Fin.ext ?_)
  match a with
  | ⟨0, _⟩ => show win0_2.index t (0 : Fin 3) * 1 + 1 * (y 0).val = (grid0.coords t 0).val; have hj : (y 0).val < 1 := (y 0).isLt; omega
  | ⟨1, _⟩ => show win0_2.index t (1 : Fin 3) * 128 + 1 * (y 1).val = (y 1).val; omega
  | ⟨2, _⟩ => show win0_2.index t (2 : Fin 3) * 2048 + 1 * (y 2).val = (grid0.coords t 1).val * 2048 + (y 2).val; omega

theorem iblk3 (c : Dev nD) (t : Fin cfg0.N) :
    iblk m c 3 t = mblockOf (V m c main_arg3) (grid0.coords t 0) (grid0.coords t 1) := by
  obtain ⟨-, -, -, -, ⟨e0, e1, e2, e3⟩, -⟩ := idx_facts t
  funext y
  show V m c main_arg3 (((cfg0.win 3).blk t).view.emb y) = V m c main_arg3 _
  refine congrArg (V m c main_arg3) (funext fun a => Fin.ext ?_)
  match a with
  | ⟨0, _⟩ => show win0_3.index t (0 : Fin 4) * 1 + 1 * (y 0).val = (grid0.coords t 0).val; have hj : (y 0).val < 1 := (y 0).isLt; omega
  | ⟨1, _⟩ => show win0_3.index t (1 : Fin 4) * 32 + 1 * (y 1).val = (grid0.coords t 1).val * 32 + (y 1).val; omega
  | ⟨2, _⟩ => show win0_3.index t (2 : Fin 4) * 128 + 1 * (y 2).val = (y 2).val; omega
  | ⟨3, _⟩ => show win0_3.index t (3 : Fin 4) * 128 + 1 * (y 3).val = (y 3).val; omega

theorem iblk4 (c : Dev nD) (t : Fin cfg0.N) : iblk m c 4 t = V m c main_arg4 := by
  obtain ⟨-, -, -, -, -, ⟨e0, e1⟩, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem iblk5 (c : Dev nD) (t : Fin cfg0.N) : iblk m c 5 t = V m c main_v3 := by
  obtain ⟨-, -, -, -, -, -, ⟨e0, e1⟩, -⟩ := idx_facts t
  funext y
  show V m c main_v3 (((cfg0.win 5).blk t).view.emb y) = V m c main_v3 y
  refine congrArg (V m c main_v3) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

theorem iblk6 (c : Dev nD) (t : Fin cfg0.N) : iblk m c 6 t = V m c main_arg6 := by
  obtain ⟨-, -, -, -, -, -, -, ⟨e0, e1⟩, -⟩ := idx_facts t
  funext y
  show V m c main_arg6 (((cfg0.win 6).blk t).view.emb y) = V m c main_arg6 y
  refine congrArg (V m c main_arg6) (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem iblk7 (c : Dev nD) (t : Fin cfg0.N) : iblk m c 7 t = V m c main_v4 := by
  obtain ⟨-, -, -, -, -, -, -, -, ⟨e0, e1⟩, -⟩ := idx_facts t
  funext y
  show V m c main_v4 (((cfg0.win 7).blk t).view.emb y) = V m c main_v4 y
  refine congrArg (V m c main_v4) (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

theorem iblk8 (c : Dev nD) (t : Fin cfg0.N) : iblk m c 8 t = V m c main_arg8 := by
  obtain ⟨-, -, -, -, -, -, -, -, -, ⟨e0, e1⟩, -⟩ := idx_facts t
  funext y
  show V m c main_arg8 (((cfg0.win 8).blk t).view.emb y) = V m c main_arg8 y
  refine congrArg (V m c main_arg8) (funext fun a => Fin.ext ?_)
  match a with
  | ⟨0, _⟩ => show win0_8.index t (0 : Fin 2) * 64 + 1 * (y 0).val = (y 0).val; omega
  | ⟨1, _⟩ => show win0_8.index t (1 : Fin 2) * 64 + 1 * (y 1).val = (y 1).val; omega

theorem iblk9 (c : Dev nD) (t : Fin cfg0.N) : iblk m c 9 t = V m c main_v5 := by
  obtain ⟨-, -, -, -, -, -, -, -, -, -, ⟨e0, e1⟩, -⟩ := idx_facts t
  funext y
  show V m c main_v5 (((cfg0.win 9).blk t).view.emb y) = V m c main_v5 y
  refine congrArg (V m c main_v5) (funext fun a => Fin.ext ?_)
  match a with
  | ⟨0, _⟩ => show win0_9.index t (0 : Fin 2) * 1 + 1 * (y 0).val = (y 0).val; omega
  | ⟨1, _⟩ => show win0_9.index t (1 : Fin 2) * 64 + 1 * (y 1).val = (y 1).val; omega

theorem iblk10 (c : Dev nD) (t : Fin cfg0.N) : iblk m c 10 t = V m c main_arg10 := by
  obtain ⟨-, -, -, -, -, -, -, -, -, -, -, ⟨e0, e1⟩, -⟩ := idx_facts t
  funext y
  show V m c main_arg10 (((cfg0.win 10).blk t).view.emb y) = V m c main_arg10 y
  refine congrArg (V m c main_arg10) (funext fun a => Fin.ext ?_)
  match a with
  | ⟨0, _⟩ => show win0_10.index t (0 : Fin 2) * 64 + 1 * (y 0).val = (y 0).val; omega
  | ⟨1, _⟩ => show win0_10.index t (1 : Fin 2) * 64 + 1 * (y 1).val = (y 1).val; omega

theorem iblk11 (c : Dev nD) (t : Fin cfg0.N) : iblk m c 11 t = V m c main_v6 := by
  obtain ⟨-, -, -, -, -, -, -, -, -, -, -, -, ⟨e0, e1⟩⟩ := idx_facts t
  funext y
  show V m c main_v6 (((cfg0.win 11).blk t).view.emb y) = V m c main_v6 y
  refine congrArg (V m c main_v6) (funext fun a => Fin.ext ?_)
  match a with
  | ⟨0, _⟩ => show win0_11.index t (0 : Fin 2) * 1 + 1 * (y 0).val = (y 0).val; omega
  | ⟨1, _⟩ => show win0_11.index t (1 : Fin 2) * 64 + 1 * (y 1).val = (y 1).val; omega

/-- Which of the two lane halves lane l of the flat array lies in. -/
def halfOf (l : Fin 4096) : Fin 2 := ⟨l.val / 2048, by omega⟩
/-- Lane l of the flat array inside its half. -/
def inHalf (l : Fin 4096) : Fin 2048 := ⟨l.val % 2048, Nat.mod_lt _ (by norm_num)⟩

/-- What the output array holds at batch entry b, position t, lane l: the row function read off the
    blocks of the arrays as the region finds them. -/
def outAt (c : Dev nD) (b : Fin 8) (t : Fin 128) (l : Fin 4096) : EReal :=
  blkOut (blockOf (V m c main_v0) b (halfOf l)) (blockOf (V m c main_v1) b (halfOf l)) (blockOf (V m c main_v2) b (halfOf l))
    (mblockOf (V m c main_arg3) b (halfOf l)) (V m c main_arg4) (V m c main_v3) (V m c main_arg6) (V m c main_v4)
    (V m c main_arg8) (V m c main_v5) (V m c main_arg10) (V m c main_v6) t (nodeOf (inHalf l)) (featOf (inHalf l))

/-- The same as an array. -/
def outArr (c : Dev nD) : S8x128x4096.Idx → EReal := fun i => outAt m c (i 0) (i 1) (i 2)

theorem outAt_block (c : Dev nD) (b : Fin 8) (tt : Fin 128) (h : Fin 2) (l2 : Fin 2048) (l : Fin 4096)
    (hl : l.val = h.val * 2048 + l2.val) :
    outAt m c b tt l
      = blkOut (blockOf (V m c main_v0) b h) (blockOf (V m c main_v1) b h) (blockOf (V m c main_v2) b h)
          (mblockOf (V m c main_arg3) b h) (V m c main_arg4) (V m c main_v3) (V m c main_arg6) (V m c main_v4)
          (V m c main_arg8) (V m c main_v5) (V m c main_arg10) (V m c main_v6) tt (nodeOf l2) (featOf l2) := by
  have h1 : halfOf l = h := Fin.ext (by show l.val / 2048 = h.val; omega)
  have h2 : inHalf l = l2 := Fin.ext (by show l.val % 2048 = l2.val; omega)
  unfold outAt
  rw [h1, h2]

theorem outAt_block' (c : Dev nD) (b b' : Fin 8) (tt tt' : Fin 128) (h : Fin 2) (l2 : Fin 2048) (l : Fin 4096)
    (hb : b' = b) (ht : tt' = tt) (hl : l.val = h.val * 2048 + l2.val) :
    outAt m c b' tt' l
      = blkOut (blockOf (V m c main_v0) b h) (blockOf (V m c main_v1) b h) (blockOf (V m c main_v2) b h)
          (mblockOf (V m c main_arg3) b h) (V m c main_arg4) (V m c main_v3) (V m c main_arg6) (V m c main_v4)
          (V m c main_arg8) (V m c main_v5) (V m c main_arg10) (V m c main_v6) tt (nodeOf l2) (featOf l2) := by
  subst hb ht
  exact outAt_block m c _ _ h l2 l hl

theorem flushed_eq (c : Dev nD) (t : Fin cfg0.N) :
    (dats m 0 c).flushed 12 t = ((cfg0.win 12).blk t).view.read (Elt Ideal) (outArr m c) := by
  show (cfg0.win 12).cut (grid0.coords t) ((dats m 0 c).after 12 t) = _
  rw [after0_12]
  unfold out0_12
  rw [View.canon_unit_zero hz3]
  simp only [View.ld_unit_zero (S := S1x128x2048) hz3, View.ld_unit_zero (S := S64x64) hz2, View.ld_unit_zero (S := S1x64) hz2, View.ld_unit_zero (S := S1x32x128x128) hz4]
  funext y
  refine (pay_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y).trans ?_
  rw [iblk0, iblk1, iblk2, iblk3, iblk4, iblk5, iblk6, iblk7, iblk8, iblk9, iblk10, iblk11]
  obtain ⟨-, -, -, ⟨e0, e1, e2⟩, -⟩ := idx_facts t
  have hb : (((cfg0.win 12).blk t).view.emb y) 0 = grid0.coords t 0 :=
    Fin.ext (by show win0_12.index t (0 : Fin 3) * 1 + 1 * (y 0).val = (grid0.coords t 0).val; have hj : (y 0).val < 1 := (y 0).isLt; omega)
  have ht : (((cfg0.win 12).blk t).view.emb y) 1 = y 1 :=
    Fin.ext (by show win0_12.index t (1 : Fin 3) * 128 + 1 * (y 1).val = (y 1).val; omega)
  have hl : ((((cfg0.win 12).blk t).view.emb y) 2).val = (grid0.coords t 1).val * 2048 + (y 2).val := by
    show win0_12.index t (2 : Fin 3) * 2048 + 1 * (y 2).val = _; omega
  show _ = outAt m c ((((cfg0.win 12).blk t).view.emb y) 0) ((((cfg0.win 12).blk t).view.emb y) 1) ((((cfg0.win 12).blk t).view.emb y) 2)
  exact (outAt_block' m c (grid0.coords t 0) _ (y 1) _ (grid0.coords t 1) (y 2) _ hb ht hl).symm

theorem idx_onto : ∀ (q0 : Fin 8) (q2 : Fin 2), ∃ t : Fin cfg0.N, win0_12.index t = ![q0.val, 0, q2.val] :=
  (by decide +kernel : ∀ (q0 : Fin 8) (q2 : Fin 2), ∃ t : Fin grid0.N, win0_12.index t = ![q0.val, 0, q2.val])

theorem mem_blk (t : Fin cfg0.N) (i : S8x128x4096.Idx) :
    i ∈ ((cfg0.win 12).blk t).view.set ↔ ∀ a : Fin 3, win0_12.index t a * S1x128x2048.size a ≤ (i a).val ∧ (i a).val < win0_12.index t a * S1x128x2048.size a + S1x128x2048.size a := by
  show i ∈ ((View.whole main_v7).slice (win0_12.rect t)).set ↔ _
  rw [View.set_slice_whole, Rect.mem_set_unit]
  exact Iff.rfl

theorem out_final (c : Dev nD) : (dats m 0 c).arrAt 12 cfg0.N = outArr m c :=
  (dats m 0 c).arrAt_eq_of_cover 12 (outArr m c) (fun t _ => flushed_eq m c t) fun i => by
    have hi0 : (i 0).val < 8 := (i 0).isLt
    have hi1 : (i 1).val < 128 := (i 1).isLt
    have hi2 : (i 2).val < 4096 := (i 2).isLt
    obtain ⟨t, ht⟩ := idx_onto ⟨(i 0).val, hi0⟩ ⟨(i 2).val / 2048, by omega⟩
    have q0 : win0_12.index t (0 : Fin 3) = (i 0).val := congrFun ht 0
    have q1 : win0_12.index t (1 : Fin 3) = 0 := congrFun ht 1
    have q2 : win0_12.index t (2 : Fin 3) = (i 2).val / 2048 := congrFun ht 2
    refine ⟨t, flush0_12 t, ?_⟩
    rw [mem_blk]
    intro a
    match a with
    | ⟨0, _⟩ => show win0_12.index t (0 : Fin 3) * 1 ≤ (i 0).val ∧ (i 0).val < win0_12.index t (0 : Fin 3) * 1 + 1; omega
    | ⟨1, _⟩ => show win0_12.index t (1 : Fin 3) * 128 ≤ (i 1).val ∧ (i 1).val < win0_12.index t (1 : Fin 3) * 128 + 128; omega
    | ⟨2, _⟩ => show win0_12.index t (2 : Fin 3) * 2048 ≤ (i 2).val ∧ (i 2).val < win0_12.index t (2 : Fin 3) * 2048 + 2048; omega

theorem V_v0 (c : Dev nD) : (V m c main_v0 : S8x128x4096.Idx → EReal)
    = shapeCast S8x128x4096 (m ((c : Thread nD τ).loc main_arg0)) shapeCasts_S8x128x64x64_S8x128x4096 := by
  show StableHlo.after hostOps0 (fun b => m (c, b)) (Proc.devRef .tc main_v0) = _
  after_results
  rfl

theorem V_v1 (c : Dev nD) : (V m c main_v1 : S8x128x4096.Idx → EReal)
    = shapeCast S8x128x4096 (m ((c : Thread nD τ).loc main_arg1)) shapeCasts_S8x128x64x64_S8x128x4096 := by
  show StableHlo.after hostOps0 (fun b => m (c, b)) (Proc.devRef .tc main_v1) = _
  after_results
  rfl

theorem V_v2 (c : Dev nD) : (V m c main_v2 : S8x128x4096.Idx → EReal)
    = shapeCast S8x128x4096 (m ((c : Thread nD τ).loc main_arg2)) shapeCasts_S8x128x64x64_S8x128x4096 := by
  show StableHlo.after hostOps0 (fun b => m (c, b)) (Proc.devRef .tc main_v2) = _
  after_results
  rfl

theorem V_v3 (c : Dev nD) : (V m c main_v3 : S1x64.Idx → EReal)
    = shapeCast S1x64 (m ((c : Thread nD τ).loc main_arg5)) shapeCasts_S64_S1x64 := by
  show StableHlo.after hostOps0 (fun b => m (c, b)) (Proc.devRef .tc main_v3) = _
  after_results
  rfl

theorem V_v4 (c : Dev nD) : (V m c main_v4 : S1x64.Idx → EReal)
    = shapeCast S1x64 (m ((c : Thread nD τ).loc main_arg7)) shapeCasts_S64_S1x64 := by
  show StableHlo.after hostOps0 (fun b => m (c, b)) (Proc.devRef .tc main_v4) = _
  after_results
  rfl

theorem V_v5 (c : Dev nD) : (V m c main_v5 : S1x64.Idx → EReal)
    = shapeCast S1x64 (m ((c : Thread nD τ).loc main_arg9)) shapeCasts_S64_S1x64 := by
  show StableHlo.after hostOps0 (fun b => m (c, b)) (Proc.devRef .tc main_v5) = _
  after_results
  rfl

theorem V_v6 (c : Dev nD) : (V m c main_v6 : S1x64.Idx → EReal)
    = shapeCast S1x64 (m ((c : Thread nD τ).loc main_arg11)) shapeCasts_S64_S1x64 := by
  show StableHlo.after hostOps0 (fun b => m (c, b)) (Proc.devRef .tc main_v6) = _
  after_results
  rfl

/-- The result of @main: the output array of the region, its two trailing axes split again. -/
theorem tail_v8 (c : Dev nD) : (Pipeline.afterTail₀ cfgs (dats m) 0 (V0 m) [hostOps1] c main_v8 : S8x128x64x64.Idx → EReal)
    = shapeCast S8x128x64x64 ((dats m 0 c).arrAt 12 cfg0.N) shapeCasts_S8x128x4096_S8x128x64x64 := by
  unfold Pipeline.afterTail₀
  show StableHlo.after hostOps1 _ (Proc.devRef .tc main_v8) = _
  after_results
  have hw := Pipeline.withArrays_arr (τ := τ) spec0 winFacts0.arr_inj c (V0 m c) (fun w => (dats m 0 c).arrAt w cfg0.N) 12
  funext i
  exact congrFun (congrArg (fun A => shapeCast S8x128x64x64 A shapeCasts_S8x128x4096_S8x128x64x64) hw) i

/-! ## From the blocks back to the argument arrays -/

/-- The linear layer read off a block of the flattened activations is the layer on the activations
    themselves, at node 32 h + nl. -/
theorem blkLin_blockOf (X : S8x128x64x64.Idx → EReal) (w : S64x64.Idx → EReal) (bv : S64.Idx → EReal)
    (b : Fin 8) (h : Fin 2) (nl : Fin 32) (t : Fin 128) (d : Fin 64) :
    blkLin (blockOf (shapeCast S8x128x4096 X shapeCasts_S8x128x64x64_S8x128x4096) b h) w
        (shapeCast S1x64 bv shapeCasts_S64_S1x64) nl t d
      = lin X w bv b t ⟨h.val * 32 + nl.val, by omega⟩ d := by
  unfold blkLin lin dot64
  have e1 : ∀ d' : Fin 64, blockOf (shapeCast S8x128x4096 X shapeCasts_S8x128x64x64_S8x128x4096) b h (ix3 0 t (lane nl d'))
      = X (ix4 b t ⟨h.val * 32 + nl.val, by omega⟩ d') := by
    intro d'
    unfold blockOf
    refine shapeCast_apply X _ _ _ ?_
    rw [Shape.rowMajor_val_four, Shape.rowMajor_val_three]
    show ((b.val * 128 + t.val) * 64 + (h.val * 32 + nl.val)) * 64 + d'.val
      = (b.val * 128 + t.val) * 4096 + (h.val * 2048 + (nl.val * 64 + d'.val))
    omega
  have e2 : shapeCast S1x64 bv shapeCasts_S64_S1x64 (ix2 0 d) = bv (ix1 d) := by
    refine shapeCast_apply bv _ _ _ ?_
    rw [Shape.rowMajor_val_one, Shape.rowMajor_val_two]
    show d.val = 0 * 64 + d.val
    omega
  rw [e2]
  exact congrArg (· + bv (ix1 d)) (Finset.sum_congr rfl fun d' _ => congrArg (· * w (ix2 d d')) (e1 d'))

/-- A bias held as one row, read at feature e. -/
theorem biasRow_apply (bv : S64.Idx → EReal) (e : Fin 64) : shapeCast S1x64 bv shapeCasts_S64_S1x64 (ix2 0 e) = bv (ix1 e) := by
  refine shapeCast_apply bv _ _ _ ?_
  rw [Shape.rowMajor_val_one, Shape.rowMajor_val_two]
  show e.val = 0 * 64 + e.val
  omega

/-- The row function depends on its arguments only through their values. -/
theorem outOf_congr {post : EReal → EReal} {Q Q' : Fin 64 → EReal} {K K' V V' : Fin 128 → Fin 64 → EReal}
    {mb mb' : Fin 128 → BitVec 1} {wp wp' : Fin 64 → Fin 64 → EReal} {bp bp' : Fin 64 → EReal}
    (hQ : ∀ d, Q d = Q' d) (hK : ∀ s d, K s d = K' s d) (hV : ∀ s d, V s d = V' s d) (hm : ∀ s, mb s = mb' s)
    (hw : ∀ e d, wp e d = wp' e d) (hb : ∀ e, bp e = bp' e) (e : Fin 64) :
    outOf post Q K V mb wp bp e = outOf post Q' K' V' mb' wp' bp' e := by
  obtain rfl : Q = Q' := funext hQ
  obtain rfl : K = K' := funext fun s => funext (hK s)
  obtain rfl : V = V' := funext fun s => funext (hV s)
  obtain rfl : mb = mb' := funext hm
  obtain rfl : wp = wp' := funext fun e => funext (hw e)
  obtain rfl : bp = bp' := funext hb
  rfl

theorem nodeOf_lane (nl : Fin 32) (e : Fin 64) : nodeOf (lane nl e) = nl :=
  Fin.ext (by show (nl.val * 64 + e.val) / 64 = nl.val; omega)
theorem featOf_lane (nl : Fin 32) (e : Fin 64) : featOf (lane nl e) = e :=
  Fin.ext (by show (nl.val * 64 + e.val) % 64 = e.val; omega)

/-- The argument arrays are all real. -/
structure RealArgs (c : Dev nD) : Prop where
  h0 : ∀ i, IsReal ((m ((c : Thread nD τ).loc main_arg0) : S8x128x64x64.Idx → EReal) i)
  h1 : ∀ i, IsReal ((m ((c : Thread nD τ).loc main_arg1) : S8x128x64x64.Idx → EReal) i)
  h4 : ∀ i, IsReal ((m ((c : Thread nD τ).loc main_arg4) : S64x64.Idx → EReal) i)
  h5 : ∀ i, IsReal ((m ((c : Thread nD τ).loc main_arg5) : S64.Idx → EReal) i)
  h6 : ∀ i, IsReal ((m ((c : Thread nD τ).loc main_arg6) : S64x64.Idx → EReal) i)
  h7 : ∀ i, IsReal ((m ((c : Thread nD τ).loc main_arg7) : S64.Idx → EReal) i)

/-- The value at batch entry b, position t, node 32 h + nl, feature e of the output, on real
    arguments: the reference's row function of the argument arrays. -/
theorem outAt_eq_refOut (c : Dev nD) (hr : RealArgs m c) (b : Fin 8) (t : Fin 128) (h : Fin 2) (nl : Fin 32) (e : Fin 64)
    (l : Fin 4096) (hl : l.val = h.val * 2048 + (nl.val * 64 + e.val)) :
    outAt m c b t l
      = refOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          b t ⟨h.val * 32 + nl.val, by omega⟩ e := by
  rw [outAt_block m c b t h (lane nl e) l hl, nodeOf_lane, featOf_lane]
  rw [V_v0, V_v1, V_v2, V_v3, V_v4, V_v5, V_v6, V_main_arg3, V_main_arg4, V_main_arg6, V_main_arg8, V_main_arg10]
  unfold blkOut refOut
  refine (outOf_congr (fun d => congrArg (· * quarter) (blkLin_blockOf _ _ _ b h nl t d))
    (fun s d => blkLin_blockOf _ _ _ b h nl s d) (fun s d => blkLin_blockOf _ _ _ b h nl s d) (fun s => rfl)
    (fun e d => rfl) (fun e => biasRow_apply _ e) e).trans ?_
  exact outOf_quarter _ _ _ _ _ _ _ (fun d => isReal_lin _ _ _ hr.h0 hr.h4 hr.h5 b t _ d)
    (fun s d => isReal_lin _ _ _ hr.h1 hr.h6 hr.h7 b s _ d)

/-- The reference's row function of the argument arrays, as the result array. -/
def refArr (c : Dev nD) : S8x128x64x64.Idx → EReal := fun i =>
  refOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (i 0) (i 1) (i 2) (i 3)

/-- On real arguments @main's result is the reference's row function at every index. -/
theorem result_eq (c : Dev nD) (hr : RealArgs m c) :
    (Pipeline.afterTail₀ cfgs (dats m) 0 (V0 m) [hostOps1] c main_v8 : S8x128x64x64.Idx → EReal) = refArr m c := by
  rw [tail_v8, out_final]
  funext i
  have hi2 : (i 2).val < 64 := (i 2).isLt
  have hi3 : (i 3).val < 64 := (i 3).isLt
  refine (shapeCast_apply (outArr m c) shapeCasts_S8x128x4096_S8x128x64x64 i
    (ix3 (i 0) (i 1) ⟨(i 2).val * 64 + (i 3).val, by omega⟩) ?_).trans ?_
  · rw [Shape.rowMajor_val_three, Shape.rowMajor_val_four]
    show ((i 0).val * 128 + (i 1).val) * 4096 + ((i 2).val * 64 + (i 3).val)
      = (((i 0).val * 128 + (i 1).val) * 64 + (i 2).val) * 64 + (i 3).val
    omega
  · show outAt m c (i 0) (i 1) ⟨(i 2).val * 64 + (i 3).val, by omega⟩ = _
    have key := outAt_eq_refOut m c hr (i 0) (i 1) ⟨(i 2).val / 32, by omega⟩ ⟨(i 2).val % 32, Nat.mod_lt _ (by norm_num)⟩ (i 3)
      ⟨(i 2).val * 64 + (i 3).val, by omega⟩ (by show (i 2).val * 64 + (i 3).val = (i 2).val / 32 * 2048 + ((i 2).val % 32 * 64 + (i 3).val); omega)
    have hn : (⟨(i 2).val / 32 * 32 + (i 2).val % 32, by omega⟩ : Fin 64) = i 2 := Fin.ext (by show (i 2).val / 32 * 32 + (i 2).val % 32 = (i 2).val; omega)
    rw [key]
    unfold refArr
    exact congrArg (fun n => refOut _ _ _ _ _ _ _ _ _ _ _ _ (i 0) (i 1) n (i 3)) hn

/-! ## The kernel's run -/

/-- On real arguments every fair run of the kernel's program ends with the reference's row function in the
    result array and the arguments unchanged. -/
theorem kernel_run (hr : ∀ c, RealArgs m c) :
    θ_run defs (onTc (τ := τ) (main (F := Ideal))) ⟨m, fun _ => 0, ρ⟩ (fun r => ∀ c : Dev nD,
      r.2.mem ((c.tc : Thread nD τ).loc main_v8) = refArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v8 (Pipeline.mem_restRefs_of main_v8 (by decide) (by decide))).trans (result_eq m c (hr c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c))⟩)
    (run_main m ρ)

end Cert.Attention.Kern

end
-- ==== Proof.RefSide.lean ====
/-
  The reference read at an index of its result.

  The reference projects queries, keys and values with one contraction each over the feature axis, splits
  the 64 features into 4 heads of 16 and moves the head axis outward, contracts queries with keys over a
  head's 16 lanes, divides by 4, fills the masked scores, takes the softmax over the key positions, mixes
  the values, moves the heads back beside each other and applies the output projection.  Read at one index
  (batch entry, position, node, feature) this is the row function of Spec.lean.
-/
import proofs.«400098_j70274254897372_3_alg».proof.Proof.Gen.ReferenceIdeal.Read
import proofs.«400098_j70274254897372_3_alg».proof.Proof.Spec
import Idealize.ShloMosaic.Lib.Pipeline.Value
import Idealize.ShloMosaic.Lib.ValueIdx
import Idealize.ShloMosaic.PureOps.Ideal.Laws

noncomputable section

namespace Cert.Attention.Ref

open Idealize.ShloMosaic Idealize.ShloMosaic.ValueIdx Cert.ReferenceIdeal Cert.ReferenceIdeal.Gen Cert.ReferenceIdeal.Read Cert.Attention

/-! ## The projections: one contraction over the feature axis plus the bias -/

section Projection

variable (x : (⟨S8x128x64x64, .f32⟩ : BufTy).Contents (Elt Ideal)) (w : (⟨S64x64, .f32⟩ : BufTy).Contents (Elt Ideal))
  (b : (⟨S64, .f32⟩ : BufTy).Contents (Elt Ideal))

private theorem lidx_v0_eq (bi : Fin 8) (t : Fin 128) (n : Fin 64) (e k : Fin 64) :
    lidx_main_v0 (ix4 bi t n e) k = ix4 bi t n k :=
  funext fun a => Fin.ext (by match a with | ⟨0, _⟩ => rfl | ⟨1, _⟩ => rfl | ⟨2, _⟩ => rfl | ⟨3, _⟩ => rfl)

private theorem ridx_v0_eq (bi : Fin 8) (t : Fin 128) (n : Fin 64) (e k : Fin 64) :
    ridx_main_v0 (ix4 bi t n e) k = ix2 e k :=
  funext fun a => Fin.ext (by match a with | ⟨0, _⟩ => rfl | ⟨1, _⟩ => rfl)

private theorem idx_v1v2_eq (bi : Fin 8) (t : Fin 128) (n : Fin 64) (e : Fin 64) :
    idx_main_v1 (idx_main_v2 (ix4 bi t n e)) = ix1 e :=
  funext fun a => Fin.ext (by match a with | ⟨0, _⟩ => rfl)

/-- The projected activations before the head split: the linear layer of the specification. -/
private theorem v3_read (bi : Fin 8) (t : Fin 128) (n : Fin 64) (e : Fin 64) :
    val_main_v3 (F := Ideal) x w b (ix4 bi t n e) = lin x w b bi t n e := by
  rw [val_main_v3_apply, val_main_v0_apply, val_main_v2_apply, val_main_v1_apply, idx_v1v2_eq]
  simp only [lidx_v0_eq, ridx_v0_eq]
  rfl

/-- Splitting the 64 features into 4 heads of 16 lanes: flat position (h, dd) is feature 16 h + dd. -/
private theorem idx_v4_eq (bi : Fin 8) (t : Fin 128) (n : Fin 64) (h : Fin 4) (dd : Fin 16) :
    idx_main_v4 (ix5 bi t n h dd) = ix4 bi t n (hd h dd) := by
  have h0 := bi.isLt; have h1 := t.isLt; have h2 := n.isLt; have h3 := h.isLt; have h4 := dd.isLt
  refine funext fun a => Fin.ext ?_
  match a with
  | ⟨0, _⟩ => exact (show ((((bi.val * 128 + t.val) * 64 + n.val) * 4 + h.val) * 16 + dd.val) / 524288 = bi.val by omega)
  | ⟨1, _⟩ => exact (show ((((bi.val * 128 + t.val) * 64 + n.val) * 4 + h.val) * 16 + dd.val) / 4096 % 128 = t.val by omega)
  | ⟨2, _⟩ => exact (show ((((bi.val * 128 + t.val) * 64 + n.val) * 4 + h.val) * 16 + dd.val) / 64 % 64 = n.val by omega)
  | ⟨3, _⟩ => exact (show ((((bi.val * 128 + t.val) * 64 + n.val) * 4 + h.val) * 16 + dd.val) % 64 = h.val * 16 + dd.val by omega)

private theorem idx_v5_eq (bi : Fin 8) (h : Fin 4) (n : Fin 64) (t : Fin 128) (dd : Fin 16) :
    idx_main_v5 (ix5 bi h n t dd) = ix5 bi t n h dd :=
  funext fun a => Fin.ext (by
    match a with | ⟨0, _⟩ => rfl | ⟨1, _⟩ => rfl | ⟨2, _⟩ => rfl | ⟨3, _⟩ => rfl | ⟨4, _⟩ => rfl)

/-- The projected rows with the head axis moved outward: lane dd of head h is feature hd h dd of the linear layer. -/
private theorem v5_read (bi : Fin 8) (h : Fin 4) (n : Fin 64) (t : Fin 128) (dd : Fin 16) :
    val_main_v5 (F := Ideal) x w b (ix5 bi h n t dd) = lin x w b bi t n (hd h dd) := by
  rw [val_main_v5_apply, idx_v5_eq, val_main_v4_apply, idx_v4_eq, v3_read]

/-- The key and value projections are the same operations on their own operands. -/
private theorem v11_eq : val_main_v11 (F := Ideal) x w b = val_main_v5 (F := Ideal) x w b := rfl
private theorem v17_eq : val_main_v17 (F := Ideal) x w b = val_main_v5 (F := Ideal) x w b := rfl

end Projection

/-! ## Scores, their row maximum and the softmax -/

/-- The neutral element of the row maximum is the bottom of the extended reals. -/
private theorem negInf_eq_bot : negInf = ⊥ := by
  unfold negInf
  simp [Ideal.ofBits, Ideal.ieee]

section Heads

variable (x0 x1 x2 : (⟨S8x128x64x64, .f32⟩ : BufTy).Contents (Elt Ideal)) (x3 : (⟨S8x64x128x128, .i32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))

/-- Head h's masked, scaled score of query position t against key position s, for batch entry bi and node n. -/
private def rsc (bi : Fin 8) (h : Fin 4) (n : Fin 64) (t s : Fin 128) : EReal :=
  scoreOf (fun z => Ideal.div z four) (fun d => lin x0 x4 x5 bi t n d) (fun d => lin x1 x6 x7 bi s n d)
    (IntOp.cmpi .ne (x3 (ix4 bi n t s)) 0#32) h

private theorem lidx_v18_eq (bi : Fin 8) (h : Fin 4) (n : Fin 64) (t s : Fin 128) (k : Fin 16) :
    lidx_main_v18 (ix5 bi h n t s) k = ix5 bi h n t k :=
  funext fun a => Fin.ext (by
    match a with | ⟨0, _⟩ => rfl | ⟨1, _⟩ => rfl | ⟨2, _⟩ => rfl | ⟨3, _⟩ => rfl | ⟨4, _⟩ => rfl)

private theorem ridx_v18_eq (bi : Fin 8) (h : Fin 4) (n : Fin 64) (t s : Fin 128) (k : Fin 16) :
    ridx_main_v18 (ix5 bi h n t s) k = ix5 bi h n s k :=
  funext fun a => Fin.ext (by
    match a with | ⟨0, _⟩ => rfl | ⟨1, _⟩ => rfl | ⟨2, _⟩ => rfl | ⟨3, _⟩ => rfl | ⟨4, _⟩ => rfl)

private theorem idx_mask_eq (bi : Fin 8) (h : Fin 4) (n : Fin 64) (t s : Fin 128) :
    idx_main_v21 (idx_main_call0_v0 (ix5 bi h n t s)) = ix4 bi n t s :=
  funext fun a => Fin.ext (by match a with | ⟨0, _⟩ => rfl | ⟨1, _⟩ => rfl | ⟨2, _⟩ => rfl | ⟨3, _⟩ => rfl)

/-- The contraction of a query row with a key row over one head's 16 lanes. -/
private theorem v18_read (bi : Fin 8) (h : Fin 4) (n : Fin 64) (t s : Fin 128) :
    val_main_v18 (F := Ideal) x0 x1 x4 x5 x6 x7 (ix5 bi h n t s)
      = ∑ dd : Fin 16, lin x0 x4 x5 bi t n (hd h dd) * lin x1 x6 x7 bi s n (hd h dd) := by
  rw [val_main_v18_apply]
  refine Finset.sum_congr rfl fun k _ => ?_
  rw [lidx_v18_eq, ridx_v18_eq, v11_eq, v5_read, v5_read]

/-- The masked, scaled scores. -/
private theorem v24_read (bi : Fin 8) (h : Fin 4) (n : Fin 64) (t s : Fin 128) :
    val_main_v24 (F := Ideal) x0 x1 x3 x4 x5 x6 x7 (ix5 bi h n t s) = rsc x0 x1 x3 x4 x5 x6 x7 bi h n t s := by
  rw [val_main_v24_apply, val_main_call0_v0_apply, val_main_v23_apply, val_main_v21_apply, val_main_v22_apply,
    val_main_c_apply, val_main_call0_v1_apply, val_main_cst_0_apply, val_main_v20_apply, val_main_v19_apply,
    val_main_cst_apply, v18_read, idx_mask_eq]
  rfl

/-- The reduction's inserted index: key position k put on the last axis. -/
private theorem lift_eq (hr : S8x4x64x128x128.Reduces [4] S8x4x64x128) (bi : Fin 8) (h : Fin 4) (n : Fin 64) (t : Fin 128)
    (k : Fin 128) : hr.lift (ix4 bi h n t) k = ix5 bi h n t k :=
  funext fun a => Fin.ext (by
    match a with | ⟨0, _⟩ => rfl | ⟨1, _⟩ => rfl | ⟨2, _⟩ => rfl | ⟨3, _⟩ => rfl | ⟨4, _⟩ => rfl)

/-- The row maximum of the scores, as the reduction computes it. -/
private theorem v25_read (bi : Fin 8) (h : Fin 4) (n : Fin 64) (t : Fin 128) :
    val_main_v25 (F := Ideal) x0 x1 x3 x4 x5 x6 x7 (ix4 bi h n t) = rowMax (rsc x0 x1 x3 x4 x5 x6 x7 bi h n t) := by
  unfold val_main_v25
  refine (Host.reduce_eq_fold_single _ _ _ reducesTo_S8x4x64x128x128_S8x4x64x128_d4 (by decide) h_S_ (ix4 bi h n t)).trans ?_
  unfold rowMax
  refine Finset.fold_congr fun k _ => ?_
  exact (congrArg (val_main_v24 (F := Ideal) x0 x1 x3 x4 x5 x6 x7) (lift_eq _ bi h n t k)).trans
    (v24_read x0 x1 x3 x4 x5 x6 x7 bi h n t k)

/-- One more maximum with the neutral element changes nothing. -/
private theorem v27_read (bi : Fin 8) (h : Fin 4) (n : Fin 64) (t : Fin 128) :
    val_main_v27 (F := Ideal) x0 x1 x3 x4 x5 x6 x7 (ix4 bi h n t) = rowMax (rsc x0 x1 x3 x4 x5 x6 x7 bi h n t) := by
  rw [val_main_v27_apply, val_main_v26_apply, val_main_cst_2_apply, v25_read]
  show max negInf _ = _
  rw [negInf_eq_bot]
  exact max_eq_right bot_le

private theorem idx_v28v29_eq (bi : Fin 8) (h : Fin 4) (n : Fin 64) (t s : Fin 128) :
    idx_main_v28 (idx_main_v29 (ix5 bi h n t s)) = ix4 bi h n t :=
  funext fun a => Fin.ext (by match a with | ⟨0, _⟩ => rfl | ⟨1, _⟩ => rfl | ⟨2, _⟩ => rfl | ⟨3, _⟩ => rfl)

/-- The exponential of a score less its row's maximum. -/
private theorem v31_read (bi : Fin 8) (h : Fin 4) (n : Fin 64) (t s : Fin 128) :
    val_main_v31 (F := Ideal) x0 x1 x3 x4 x5 x6 x7 (ix5 bi h n t s)
      = Ideal.exp (rsc x0 x1 x3 x4 x5 x6 x7 bi h n t s - rowMax (rsc x0 x1 x3 x4 x5 x6 x7 bi h n t)) := by
  rw [val_main_v31_apply, val_main_v30_apply, val_main_v29_apply, val_main_v28_apply, idx_v28v29_eq, v27_read, v24_read]
  rfl

private theorem idx_v32_eq (bi : Fin 8) (h : Fin 4) (n : Fin 64) (t : Fin 128) (k : Fin 128) :
    idx_main_v32 (ix4 bi h n t) k = ix5 bi h n t k :=
  funext fun a => Fin.ext (by
    match a with | ⟨0, _⟩ => rfl | ⟨1, _⟩ => rfl | ⟨2, _⟩ => rfl | ⟨3, _⟩ => rfl | ⟨4, _⟩ => rfl)

private theorem idx_v33v34_eq (bi : Fin 8) (h : Fin 4) (n : Fin 64) (t s : Fin 128) :
    idx_main_v33 (idx_main_v34 (ix5 bi h n t s)) = ix4 bi h n t :=
  funext fun a => Fin.ext (by match a with | ⟨0, _⟩ => rfl | ⟨1, _⟩ => rfl | ⟨2, _⟩ => rfl | ⟨3, _⟩ => rfl)

/-- The softmax's denominator: the exponentials summed over the key positions, from zero. -/
private theorem v32_read (bi : Fin 8) (h : Fin 4) (n : Fin 64) (t : Fin 128) :
    val_main_v32 (F := Ideal) x0 x1 x3 x4 x5 x6 x7 (ix4 bi h n t)
      = ∑ s' : Fin 128, Ideal.exp (rsc x0 x1 x3 x4 x5 x6 x7 bi h n t s' - rowMax (rsc x0 x1 x3 x4 x5 x6 x7 bi h n t)) := by
  rw [val_main_v32_apply, val_main_cst_3_apply, Ideal.ofBits_def, Ideal.ofBits_zero_f32, zero_add]
  refine Finset.sum_congr rfl fun k _ => ?_
  rw [idx_v32_eq, v31_read]

/-- The softmax weights. -/
private theorem v35_read (bi : Fin 8) (h : Fin 4) (n : Fin 64) (t s : Fin 128) :
    val_main_v35 (F := Ideal) x0 x1 x3 x4 x5 x6 x7 (ix5 bi h n t s) = attn (rsc x0 x1 x3 x4 x5 x6 x7 bi h n t) s := by
  rw [val_main_v35_apply, val_main_v34_apply, val_main_v33_apply, idx_v33v34_eq, v32_read, v31_read]
  rfl

end Heads

/-! ## The context, the heads side by side again, and the output projection -/

/-- The lane of feature d inside its head. -/
private def laneOf (d : Fin 64) : Fin 16 := ⟨d.val % 16, Nat.mod_lt _ (by decide)⟩

/-- A feature is the lane it has inside the head that owns it. -/
private theorem hd_headOf (d : Fin 64) : hd (headOf d) (laneOf d) = d :=
  Fin.ext (show d.val / 16 * 16 + d.val % 16 = d.val by omega)

section Context

variable (x0 x1 x2 : (⟨S8x128x64x64, .f32⟩ : BufTy).Contents (Elt Ideal)) (x3 : (⟨S8x64x128x128, .i32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x64, .f32⟩ : BufTy).Contents (Elt Ideal)) (x9 : (⟨S64, .f32⟩ : BufTy).Contents (Elt Ideal))

private theorem lidx_v36_eq (bi : Fin 8) (h : Fin 4) (n : Fin 64) (t : Fin 128) (dd : Fin 16) (k : Fin 128) :
    lidx_main_v36 (ix5 bi h n t dd) k = ix5 bi h n t k :=
  funext fun a => Fin.ext (by
    match a with | ⟨0, _⟩ => rfl | ⟨1, _⟩ => rfl | ⟨2, _⟩ => rfl | ⟨3, _⟩ => rfl | ⟨4, _⟩ => rfl)

private theorem ridx_v36_eq (bi : Fin 8) (h : Fin 4) (n : Fin 64) (t : Fin 128) (dd : Fin 16) (k : Fin 128) :
    ridx_main_v36 (ix5 bi h n t dd) k = ix5 bi h n k dd :=
  funext fun a => Fin.ext (by
    match a with | ⟨0, _⟩ => rfl | ⟨1, _⟩ => rfl | ⟨2, _⟩ => rfl | ⟨3, _⟩ => rfl | ⟨4, _⟩ => rfl)

/-- One lane of one head's context: the value rows mixed by the softmax weights. -/
private theorem v36_read (bi : Fin 8) (h : Fin 4) (n : Fin 64) (t : Fin 128) (dd : Fin 16) :
    val_main_v36 (F := Ideal) x0 x1 x2 x3 x4 x5 x6 x7 x8 x9 (ix5 bi h n t dd)
      = mix (rsc x0 x1 x3 x4 x5 x6 x7 bi h n t) (fun s => lin x2 x8 x9 bi s n (hd h dd)) := by
  rw [val_main_v36_apply]
  unfold mix
  refine Finset.sum_congr rfl fun k _ => ?_
  rw [lidx_v36_eq, ridx_v36_eq, v35_read, v17_eq, v5_read]

private theorem idx_v37_eq (bi : Fin 8) (t : Fin 128) (n : Fin 64) (h : Fin 4) (dd : Fin 16) :
    idx_main_v37 (ix5 bi t n h dd) = ix5 bi h n t dd :=
  funext fun a => Fin.ext (by
    match a with | ⟨0, _⟩ => rfl | ⟨1, _⟩ => rfl | ⟨2, _⟩ => rfl | ⟨3, _⟩ => rfl | ⟨4, _⟩ => rfl)

/-- Laying the heads side by side: feature d is lane d mod 16 of head d / 16. -/
private theorem idx_v38_eq (bi : Fin 8) (t : Fin 128) (n : Fin 64) (d : Fin 64) :
    idx_main_v38 (ix4 bi t n d) = ix5 bi t n (headOf d) (laneOf d) := by
  have h0 := bi.isLt; have h1 := t.isLt; have h2 := n.isLt; have h3 := d.isLt
  refine funext fun a => Fin.ext ?_
  match a with
  | ⟨0, _⟩ => exact (show (((bi.val * 128 + t.val) * 64 + n.val) * 64 + d.val) / 524288 = bi.val by omega)
  | ⟨1, _⟩ => exact (show (((bi.val * 128 + t.val) * 64 + n.val) * 64 + d.val) / 4096 % 128 = t.val by omega)
  | ⟨2, _⟩ => exact (show (((bi.val * 128 + t.val) * 64 + n.val) * 64 + d.val) / 64 % 64 = n.val by omega)
  | ⟨3, _⟩ => exact (show (((bi.val * 128 + t.val) * 64 + n.val) * 64 + d.val) / 16 % 4 = d.val / 16 by omega)
  | ⟨4, _⟩ => exact (show (((bi.val * 128 + t.val) * 64 + n.val) * 64 + d.val) % 16 = d.val % 16 by omega)

/-- The attention context of one query row at feature d. -/
private theorem v38_read (bi : Fin 8) (t : Fin 128) (n : Fin 64) (d : Fin 64) :
    val_main_v38 (F := Ideal) x0 x1 x2 x3 x4 x5 x6 x7 x8 x9 (ix4 bi t n d)
      = ctxOf (fun z => Ideal.div z four) (fun d => lin x0 x4 x5 bi t n d) (fun s d => lin x1 x6 x7 bi s n d)
          (fun s d => lin x2 x8 x9 bi s n d) (fun s => IntOp.cmpi .ne (x3 (ix4 bi n t s)) 0#32) d := by
  rw [val_main_v38_apply, idx_v38_eq, val_main_v37_apply, idx_v37_eq, v36_read, hd_headOf]
  rfl

end Context

private theorem lidx_v39_eq (bi : Fin 8) (t : Fin 128) (n : Fin 64) (e k : Fin 64) :
    lidx_main_v39 (ix4 bi t n e) k = ix4 bi t n k :=
  funext fun a => Fin.ext (by match a with | ⟨0, _⟩ => rfl | ⟨1, _⟩ => rfl | ⟨2, _⟩ => rfl | ⟨3, _⟩ => rfl)

private theorem ridx_v39_eq (bi : Fin 8) (t : Fin 128) (n : Fin 64) (e k : Fin 64) :
    ridx_main_v39 (ix4 bi t n e) k = ix2 e k :=
  funext fun a => Fin.ext (by match a with | ⟨0, _⟩ => rfl | ⟨1, _⟩ => rfl)

private theorem idx_v40v41_eq (bi : Fin 8) (t : Fin 128) (n : Fin 64) (e : Fin 64) :
    idx_main_v40 (idx_main_v41 (ix4 bi t n e)) = ix1 e :=
  funext fun a => Fin.ext (by match a with | ⟨0, _⟩ => rfl)

/-- The reference's result at batch entry bi, position t, node n, feature e. -/
theorem ref_apply (x0 x1 x2 : (⟨S8x128x64x64, .f32⟩ : BufTy).Contents (Elt Ideal)) (x3 : (⟨S8x64x128x128, .i32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal))
    (x8 : (⟨S64x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (bi : Fin 8) (t : Fin 128) (n : Fin 64) (e : Fin 64) :
    val_main_v42 (F := Ideal) x0 x1 x2 x3 x4 x5 x6 x7 x8 x9 x10 x11 (ix4 bi t n e)
      = refOut x0 x1 x2 x3 x4 x5 x6 x7 x8 x9 x10 x11 bi t n e := by
  rw [val_main_v42_apply, val_main_v39_apply, val_main_v41_apply, val_main_v40_apply, idx_v40v41_eq]
  unfold refOut outOf dot64
  refine congrArg₂ (· + ·) (Finset.sum_congr rfl fun k _ => ?_) rfl
  rw [lidx_v39_eq, ridx_v39_eq, v38_read]

end Cert.Attention.Ref

end
-- ==== Proof.Finite.lean ====
/-
  Under the precondition every float input is a real number.

  The precondition is the conjunction, over the eleven float inputs, of "every entry's absolute value is
  below +inf"; an extended real whose absolute value is below +inf is neither infinity.
-/
import proofs.«400098_j70274254897372_3_alg».proof.Proof.Gen.Pre_finite_inputs
import proofs.«400098_j70274254897372_3_alg».proof.Proof.Spec
import Idealize.ShloMosaic.Lib.ReduceAll
import Idealize.ShloMosaic.Lib.ValueIdx
import Idealize.ShloMosaic.PureOps.Ideal.Laws

noncomputable section

namespace Cert.Attention.Fin

open Idealize.ShloMosaic Idealize.ShloMosaic.ValueIdx Cert.Pre_finite_inputs Cert.Attention

/-- The f32 pattern with all-ones exponent, zero fraction and sign bit clear denotes +inf. -/
private theorem posInf_eq : Ideal.ofBits .f32 0x7F800000#32 = (⊤ : EReal) := by
  simp [Ideal.ofBits, Ideal.ieee]

/-- An extended real whose absolute value max x (-x) is strictly below +inf is a real number:
    at -inf and at +inf the absolute value is +inf itself. -/
private theorem isReal_of_abs_lt (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

/-- The shape of rank 0 has exactly one index. -/
private instance : Subsingleton S_.Idx := ⟨fun a b => funext fun d => d.elim0⟩

/-- An all-ones finiteness test of an array gives a real number at every entry: the conjunction over all
    axes of the bits |x i| < +inf being 1 makes every single bit 1, and such an entry is real. -/
private theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf x) (broadcastInDim s ![] hb (constant S_ .f32 0x7F800000#32))) init hr hu j = 1#1)
    (i : s.Idx) : IsReal (x i) := by
  have h1 := Host.reduce_andi_all _ init hr hu j e i
  refine isReal_of_abs_lt (x i) ?_
  rw [← posInf_eq]
  exact h1

/-- Every entry of every float input is a real number when the precondition's word is all ones. -/
theorem real_of_pre (x0 x1 x2 : FVec Ideal S8x128x64x64 .f32) (x3 : IVec S8x64x128x128 32) (x4 : FVec Ideal S64x64 .f32)
    (x5 : FVec Ideal S64 .f32) (x6 : FVec Ideal S64x64 .f32) (x7 : FVec Ideal S64 .f32) (x8 : FVec Ideal S64x64 .f32)
    (x9 : FVec Ideal S64 .f32) (x10 : FVec Ideal S64x64 .f32) (x11 : FVec Ideal S64 .f32)
    (h : Cert.Pre_finite_inputs.fn (F := Ideal) x0 x1 x2 x3 x4 x5 x6 x7 x8 x9 x10 x11 = fun _ => 1#1) :
    (∀ i, IsReal (x0 i)) ∧ (∀ i, IsReal (x1 i)) ∧ (∀ i, IsReal (x2 i)) ∧ (∀ i, IsReal (x4 i)) ∧ (∀ i, IsReal (x5 i))
      ∧ (∀ i, IsReal (x6 i)) ∧ (∀ i, IsReal (x7 i)) ∧ (∀ i, IsReal (x8 i)) ∧ (∀ i, IsReal (x9 i))
      ∧ (∀ i, IsReal (x10 i)) ∧ (∀ i, IsReal (x11 i)) := by
  -- the word at the one index of the result is the conjunction of the eleven tests, nested to the left
  have h0 := congrFun h ix0
  dsimp only [fn, fn_part1, fn_part2, fn_part3, andi] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e2⟩ := IntOp.andi_eq_one.1 h0
  obtain ⟨e0, e1⟩ := IntOp.andi_eq_one.1 h0
  exact ⟨real_of_all x0 _ _ _ _ _ e0, real_of_all x1 _ _ _ _ _ e1, real_of_all x2 _ _ _ _ _ e2,
    real_of_all x4 _ _ _ _ _ e4, real_of_all x5 _ _ _ _ _ e5, real_of_all x6 _ _ _ _ _ e6,
    real_of_all x7 _ _ _ _ _ e7, real_of_all x8 _ _ _ _ _ e8, real_of_all x9 _ _ _ _ _ e9,
    real_of_all x10 _ _ _ _ _ e10, real_of_all x11 _ _ _ _ _ e11⟩

end Cert.Attention.Fin

end
-- ==== Proof.lean ====
/-
  A fused multi-head attention kernel against its jnp reference, over the extended reals.

  Both programs project queries, keys and values with a linear layer over the 64 features, split the
  features into 4 heads of 16 lanes, score every query position against every key position of the same
  node by the dot product over a head's lanes scaled by 1/4, put -1e9 where the mask word is not zero,
  take the softmax over the key positions, mix the value rows with it, lay the heads side by side again and
  apply the output projection.  They differ in layout (the kernel works on blocks of 32 nodes with the
  features of a node side by side in 2048 lanes, the reference moves the head axis outward) and in where
  the factor 1/4 sits: the kernel multiplies the projected queries by it, the reference divides the dot
  products by 4.  Spec.lean states the common row function, KBlock.lean reads the kernel's result array as
  that function of the argument arrays, RefSide.lean does the same for the reference, Finite.lean makes the
  float arguments real under the precondition, and Law.lean moves the factor on real rows.  The frames of the
  two kernel programs are the generated ones, the reference's frame is its generated run, and no operation
  was rewritten by the idealization, so there is nothing to preserve.
-/
import proofs.«400098_j70274254897372_3_alg».proof.Defs
import proofs.«400098_j70274254897372_3_alg».proof.Proof.Gen.Kernel
import proofs.«400098_j70274254897372_3_alg».proof.Proof.Gen.Kernel.Skeleton
import proofs.«400098_j70274254897372_3_alg».proof.Proof.Gen.Kernel.Launch
import proofs.«400098_j70274254897372_3_alg».proof.Proof.Gen.Kernel.Points
import proofs.«400098_j70274254897372_3_alg».proof.Proof.Gen.Kernel.Frame
import proofs.«400098_j70274254897372_3_alg».proof.Proof.Gen.KernelIdeal
import proofs.«400098_j70274254897372_3_alg».proof.Proof.Gen.KernelIdeal.Skeleton
import proofs.«400098_j70274254897372_3_alg».proof.Proof.Gen.KernelIdeal.Launch
import proofs.«400098_j70274254897372_3_alg».proof.Proof.Gen.KernelIdeal.Points
import proofs.«400098_j70274254897372_3_alg».proof.Proof.Gen.KernelIdeal.Frame
import proofs.«400098_j70274254897372_3_alg».proof.Proof.Gen.ReferenceIdeal
import proofs.«400098_j70274254897372_3_alg».proof.Proof.Gen.Pre_finite_inputs
import proofs.«400098_j70274254897372_3_alg».proof.Proof.Gen.ReferenceIdeal.Run
import proofs.«400098_j70274254897372_3_alg».proof.Proof.Gen.ReferenceIdeal.Read
import proofs.«400098_j70274254897372_3_alg».proof.Proof.KBlock
import proofs.«400098_j70274254897372_3_alg».proof.Proof.RefSide
import proofs.«400098_j70274254897372_3_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Under the precondition the arguments the two linear layers of the scores read are real. -/
theorem realArgs (m : (ℓ : Loc Cert.KernelIdeal.nD Cert.KernelIdeal.τ Cert.KernelIdeal.sig) → Buf (Elt Ideal) ℓ)
    (hpre : Cert.Pre_KernelIdeal m) (c : Dev Cert.KernelIdeal.nD) : Cert.Attention.Kern.RealArgs m c := by
  obtain ⟨h0, h1, -, h4, h5, h6, h7, -⟩ := Cert.Attention.Fin.real_of_pre _ _ _ _ _ _ _ _ _ _ _ _ (hpre c)
  exact ⟨h0, h1, h4, h5, h6, h7⟩

/-- Both programs end with the row function of the argument arrays in their result. -/
theorem algebraic : Cert.algebraic_KernelIdeal_ReferenceIdeal := by
  intro m ρ m' ρ' hpre hagree
  refine ⟨fun c => Cert.Attention.Kern.refArr m c, Cert.Attention.Kern.kernel_run m ρ (realArgs m hpre), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v42_eq, a0, a1, a2, a3, a4, a5, a6, a7, a8, a9, a10, a11]
  funext i
  exact (congrArg _ (ValueIdx.eq_ix4 i)).trans (Cert.Attention.Ref.ref_apply _ _ _ _ _ _ _ _ _ _ _ _ (i 0) (i 1) (i 2) (i 3))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
